-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x2048 : Shape := ⟨3, ![64, 128, 2048]⟩
abbrev S64 : Shape := ⟨1, ![64]⟩
abbrev S32x2048 : Shape := ⟨2, ![32, 2048]⟩
abbrev S_ : Shape := ⟨0, ![]⟩

class Facts : Prop where
  bcast_S_S64x128x2048 : S_.BroadcastsInDim S64x128x2048 (![] : Fin 0 → Fin S64x128x2048.rank)
  reducesTo_S64x128x2048_S_d0_1_2 : S64x128x2048.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S64x128x2048 .f32) (main_arg1 : IVec S64 32) (main_arg2 : FVec F S32x2048 .f32) (main_arg3 : FVec F S32x2048 .f32) : IVec S_ 1 :=
  let main_v0 : FVec F S64x128x2048 .f32 := Host.absf main_arg0
  let main_cst : FVec F S_ .f32 := constant S_ .f32 0x7F800000#32
  let main_v1 : FVec F S64x128x2048 .f32 := broadcastInDim S64x128x2048 ![] bcast_S_S64x128x2048 main_cst
  let main_v2 : IVec S64x128x2048 1 := cmpf .olt main_v0 main_v1
  let main_c : IVec S_ 1 := constantI S_ 1 1#1
  let main_v3 : IVec S_ 1 := (fun x v => Host.reduce IntOp.andi x v reducesTo_S64x128x2048_S_d0_1_2 h_S_) main_v2 main_c
  let main_v4 : FVec F S32x2048 .f32 := Host.absf main_arg2
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32x2048 .f32 := Host.absf main_arg3
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .ne main_arg1 main_v14
  let main_c_5 : IVec S_ 1 := constantI S_ 1 1#1
  fn_part1 (F := F) main_v13 main_v15 main_c_5
-- ==== Kernel.lean ====
abbrev S64x128x2048 : Shape := ⟨3, ![64, 128, 2048]⟩
abbrev S64 : Shape := ⟨1, ![64]⟩
abbrev S32x2048 : Shape := ⟨2, ![32, 2048]⟩
abbrev S128 : Shape := ⟨1, ![128]⟩
abbrev S1x128 : Shape := ⟨2, ![1, 128]⟩
abbrev S64x1 : Shape := ⟨2, ![64, 1]⟩
abbrev S64x128 : Shape := ⟨2, ![64, 128]⟩
abbrev S64x128x1 : Shape := ⟨3, ![64, 128, 1]⟩
abbrev S64x67584 : Shape := ⟨2, ![64, 67584]⟩
abbrev S8x128x2048 : Shape := ⟨3, ![8, 128, 2048]⟩
abbrev S8x128x1 : Shape := ⟨3, ![8, 128, 1]⟩
abbrev S8x1 : Shape := ⟨2, ![8, 1]⟩
abbrev S8x67584 : Shape := ⟨2, ![8, 67584]⟩
abbrev S8x2048 : Shape := ⟨2, ![8, 2048]⟩
abbrev S8x128 : Shape := ⟨2, ![8, 128]⟩
abbrev S1024x2048 : Shape := ⟨2, ![1024, 2048]⟩
abbrev S1024x32 : Shape := ⟨2, ![1024, 32]⟩
abbrev S8x128x32 : Shape := ⟨3, ![8, 128, 32]⟩
abbrev S8x32x2048 : Shape := ⟨3, ![8, 32, 2048]⟩
abbrev S8x32 : Shape := ⟨2, ![8, 32]⟩
abbrev S8x32x1 : Shape := ⟨3, ![8, 32, 1]⟩
abbrev S1x32x2048 : Shape := ⟨3, ![1, 32, 2048]⟩
abbrev S8x1x1 : Shape := ⟨3, ![8, 1, 1]⟩
abbrev S8x1x2048 : Shape := ⟨3, ![8, 1, 2048]⟩

abbrev nBuf : Space → Nat
  | .hbm => 15
  | .vmem => 10
  | .smem => 0
  | _ => 0

abbrev bufTy : (tb : Table) → Fin (tcTables nBuf tb) → BufTy
  | .hbm, ⟨0, _⟩ => ⟨S64x128x2048, .f32⟩
  | .hbm, ⟨1, _⟩ => ⟨S64, .i32⟩
  | .hbm, ⟨2, _⟩ => ⟨S32x2048, .f32⟩
  | .hbm, ⟨3, _⟩ => ⟨S32x2048, .f32⟩
  | .hbm, ⟨4, _⟩ => ⟨S128, .i32⟩
  | .hbm, ⟨5, _⟩ => ⟨S1x128, .i32⟩
  | .hbm, ⟨6, _⟩ => ⟨S64x1, .i32⟩
  | .hbm, ⟨7, _⟩ => ⟨S64x128, .i32⟩
  | .hbm, ⟨8, _⟩ => ⟨S64x128, .i32⟩
  | .hbm, ⟨9, _⟩ => ⟨S64x128, .i1⟩
  | .hbm, ⟨10, _⟩ => ⟨S64x128, .f32⟩
  | .hbm, ⟨11, _⟩ => ⟨S64x128x1, .f32⟩
  | .hbm, ⟨12, _⟩ => ⟨S64, .f32⟩
  | .hbm, ⟨13, _⟩ => ⟨S64x1, .f32⟩
  | .hbm, ⟨14, _⟩ => ⟨S64x67584, .f32⟩
  | .local _ .vmem, ⟨0, _⟩ => ⟨S8x128x2048, .f32⟩
  | .local _ .vmem, ⟨1, _⟩ => ⟨S8x128x2048, .f32⟩
  | .local _ .vmem, ⟨2, _⟩ => ⟨S8x128x1, .f32⟩
  | .local _ .vmem, ⟨3, _⟩ => ⟨S8x128x1, .f32⟩
  | .local _ .vmem, ⟨4, _⟩ => ⟨S8x1, .f32⟩
  | .local _ .vmem, ⟨5, _⟩ => ⟨S8x1, .f32⟩
  | .local _ .vmem, ⟨6, _⟩ => ⟨S32x2048, .f32⟩
  | .local _ .vmem, ⟨7, _⟩ => ⟨S32x2048, .f32⟩
  | .local _ .vmem, ⟨8, _⟩ => ⟨S8x67584, .f32⟩
  | .local _ .vmem, ⟨9, _⟩ => ⟨S8x67584, .f32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x67584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S64x128_S64x128x1_0_1 : S64x128.BroadcastsInDim S64x128x1 (![0, 1] : Fin 2 → Fin S64x128x1.rank)
  inb_S8x128x2048_S8x128x2048_0_0_0 : ∀ a, (![0, 0, 0] : Fin 3 → Nat) a + S8x128x2048.size a ≤ S8x128x2048.size a
  h_S8x128x2048 : 0 < S8x128x2048.numel
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x128x1_S8x128x2048 : S8x128x1.Broadcasts S8x128x2048
  reduces_S8x128x2048_S8x2048 : S8x128x2048.Reduces [1] S8x2048
  broadcasts_S8x1_S8x2048 : S8x1.Broadcasts S8x2048
  reduces_S8x128x2048_S8x128 : S8x128x2048.Reduces [2] S8x128
  shapeCasts_S8x128_S8x128x1 : S8x128.ShapeCasts S8x128x1
  inb_S32x2048_S32x2048_0_0 : ∀ a, (![0, 0] : Fin 2 → Nat) a + S32x2048.size a ≤ S32x2048.size a
  h_S32x2048 : 0 < S32x2048.numel
  shapeCasts_S8x128x2048_S1024x2048 : S8x128x2048.ShapeCasts S1024x2048
  shapeCasts_S1024x32_S8x128x32 : S1024x32.ShapeCasts S8x128x32
  reduces_S8x128x32_S8x128 : S8x128x32.Reduces [2] S8x128
  broadcasts_S8x128x1_S8x128x32 : S8x128x1.Broadcasts S8x128x32
  reduces_S8x128x32_S8x32 : S8x128x32.Reduces [1] S8x32
  shapeCasts_S8x32_S8x32x1 : S8x32.ShapeCasts S8x32x1
  shapeCasts_S32x2048_S1x32x2048 : S32x2048.ShapeCasts S1x32x2048
  broadcasts_S8x32x1_S8x32x2048 : S8x32x1.Broadcasts S8x32x2048
  broadcasts_S1x32x2048_S8x32x2048 : S1x32x2048.Broadcasts S8x32x2048
  reduces_S8x32x2048_S8x32 : S8x32x2048.Reduces [2] S8x32
  reduces_S8x32x1_S8x1 : S8x32x1.Reduces [1] S8x1
  shapeCasts_S8x1_S8x1x1 : S8x1.ShapeCasts S8x1x1
  shapeCasts_S8x1x1_S8x1x1 : S8x1x1.ShapeCasts S8x1x1
  broadcasts_S8x1x1_S8x32x2048 : S8x1x1.Broadcasts S8x32x2048
  inb_S8x67584_S8x2048_0_0 : ∀ a, (![0, 0] : Fin 2 → Nat) a + S8x2048.size a ≤ S8x67584.size a
  h_S8x2048 : 0 < S8x2048.numel
  slices_S8x32x2048_o0_0_0_S8x1x2048 : S8x32x2048.Slices ![0, 0, 0] S8x1x2048
  shapeCasts_S8x1x2048_S8x2048 : S8x1x2048.ShapeCasts S8x2048
  inb_S8x67584_S8x2048_0_2048 : ∀ a, (![0, 2048] : Fin 2 → Nat) a + S8x2048.size a ≤ S8x67584.size a
  slices_S8x32x2048_o0_1_0_S8x1x2048 : S8x32x2048.Slices ![0, 1, 0] S8x1x2048
  inb_S8x67584_S8x2048_0_4096 : ∀ a, (![0, 4096] : Fin 2 → Nat) a + S8x2048.size a ≤ S8x67584.size a
  slices_S8x32x2048_o0_2_0_S8x1x2048 : S8x32x2048.Slices ![0, 2, 0] S8x1x2048
  inb_S8x67584_S8x2048_0_6144 : ∀ a, (![0, 6144] : Fin 2 → Nat) a + S8x2048.size a ≤ S8x67584.size a
  slices_S8x32x2048_o0_3_0_S8x1x2048 : S8x32x2048.Slices ![0, 3, 0] S8x1x2048
  inb_S8x67584_S8x2048_0_8192 : ∀ a, (![0, 8192] : Fin 2 → Nat) a + S8x2048.size a ≤ S8x67584.size a
  slices_S8x32x2048_o0_4_0_S8x1x2048 : S8x32x2048.Slices ![0, 4, 0] S8x1x2048
  inb_S8x67584_S8x2048_0_10240 : ∀ a, (![0, 10240] : Fin 2 → Nat) a + S8x2048.size a ≤ S8x67584.size a
  slices_S8x32x2048_o0_5_0_S8x1x2048 : S8x32x2048.Slices ![0, 5, 0] S8x1x2048
  inb_S8x67584_S8x2048_0_12288 : ∀ a, (![0, 12288] : Fin 2 → Nat) a + S8x2048.size a ≤ S8x67584.size a
  slices_S8x32x2048_o0_6_0_S8x1x2048 : S8x32x2048.Slices ![0, 6, 0] S8x1x2048
  inb_S8x67584_S8x2048_0_14336 : ∀ a, (![0, 14336] : Fin 2 → Nat) a + S8x2048.size a ≤ S8x67584.size a
  slices_S8x32x2048_o0_7_0_S8x1x2048 : S8x32x2048.Slices ![0, 7, 0] S8x1x2048
  inb_S8x67584_S8x2048_0_16384 : ∀ a, (![0, 16384] : Fin 2 → Nat) a + S8x2048.size a ≤ S8x67584.size a
  slices_S8x32x2048_o0_8_0_S8x1x2048 : S8x32x2048.Slices ![0, 8, 0] S8x1x2048
  inb_S8x67584_S8x2048_0_18432 : ∀ a, (![0, 18432] : Fin 2 → Nat) a + S8x2048.size a ≤ S8x67584.size a
  slices_S8x32x2048_o0_9_0_S8x1x2048 : S8x32x2048.Slices ![0, 9, 0] S8x1x2048
  inb_S8x67584_S8x2048_0_20480 : ∀ a, (![0, 20480] : Fin 2 → Nat) a + S8x2048.size a ≤ S8x67584.size a
  slices_S8x32x2048_o0_10_0_S8x1x2048 : S8x32x2048.Slices ![0, 10, 0] S8x1x2048
  inb_S8x67584_S8x2048_0_22528 : ∀ a, (![0, 22528] : Fin 2 → Nat) a + S8x2048.size a ≤ S8x67584.size a
  slices_S8x32x2048_o0_11_0_S8x1x2048 : S8x32x2048.Slices ![0, 11, 0] S8x1x2048
  inb_S8x67584_S8x2048_0_24576 : ∀ a, (![0, 24576] : Fin 2 → Nat) a + S8x2048.size a ≤ S8x67584.size a
  slices_S8x32x2048_o0_12_0_S8x1x2048 : S8x32x2048.Slices ![0, 12, 0] S8x1x2048
  inb_S8x67584_S8x2048_0_26624 : ∀ a, (![0, 26624] : Fin 2 → Nat) a + S8x2048.size a ≤ S8x67584.size a
  slices_S8x32x2048_o0_13_0_S8x1x2048 : S8x32x2048.Slices ![0, 13, 0] S8x1x2048
  inb_S8x67584_S8x2048_0_28672 : ∀ a, (![0, 28672] : Fin 2 → Nat) a + S8x2048.size a ≤ S8x67584.size a
  slices_S8x32x2048_o0_14_0_S8x1x2048 : S8x32x2048.Slices ![0, 14, 0] S8x1x2048
  inb_S8x67584_S8x2048_0_30720 : ∀ a, (![0, 30720] : Fin 2 → Nat) a + S8x2048.size a ≤ S8x67584.size a
  slices_S8x32x2048_o0_15_0_S8x1x2048 : S8x32x2048.Slices ![0, 15, 0] S8x1x2048
  inb_S8x67584_S8x2048_0_32768 : ∀ a, (![0, 32768] : Fin 2 → Nat) a + S8x2048.size a ≤ S8x67584.size a
  slices_S8x32x2048_o0_16_0_S8x1x2048 : S8x32x2048.Slices ![0, 16, 0] S8x1x2048
  inb_S8x67584_S8x2048_0_34816 : ∀ a, (![0, 34816] : Fin 2 → Nat) a + S8x2048.size a ≤ S8x67584.size a
  slices_S8x32x2048_o0_17_0_S8x1x2048 : S8x32x2048.Slices ![0, 17, 0] S8x1x2048
  inb_S8x67584_S8x2048_0_36864 : ∀ a, (![0, 36864] : Fin 2 → Nat) a + S8x2048.size a ≤ S8x67584.size a
  slices_S8x32x2048_o0_18_0_S8x1x2048 : S8x32x2048.Slices ![0, 18, 0] S8x1x2048
  inb_S8x67584_S8x2048_0_38912 : ∀ a, (![0, 38912] : Fin 2 → Nat) a + S8x2048.size a ≤ S8x67584.size a
  slices_S8x32x2048_o0_19_0_S8x1x2048 : S8x32x2048.Slices ![0, 19, 0] S8x1x2048
  inb_S8x67584_S8x2048_0_40960 : ∀ a, (![0, 40960] : Fin 2 → Nat) a + S8x2048.size a ≤ S8x67584.size a
  slices_S8x32x2048_o0_20_0_S8x1x2048 : S8x32x2048.Slices ![0, 20, 0] S8x1x2048
  inb_S8x67584_S8x2048_0_43008 : ∀ a, (![0, 43008] : Fin 2 → Nat) a + S8x2048.size a ≤ S8x67584.size a
  slices_S8x32x2048_o0_21_0_S8x1x2048 : S8x32x2048.Slices ![0, 21, 0] S8x1x2048
  inb_S8x67584_S8x2048_0_45056 : ∀ a, (![0, 45056] : Fin 2 → Nat) a + S8x2048.size a ≤ S8x67584.size a
  slices_S8x32x2048_o0_22_0_S8x1x2048 : S8x32x2048.Slices ![0, 22, 0] S8x1x2048
  inb_S8x67584_S8x2048_0_47104 : ∀ a, (![0, 47104] : Fin 2 → Nat) a + S8x2048.size a ≤ S8x67584.size a
  slices_S8x32x2048_o0_23_0_S8x1x2048 : S8x32x2048.Slices ![0, 23, 0] S8x1x2048
  inb_S8x67584_S8x2048_0_49152 : ∀ a, (![0, 49152] : Fin 2 → Nat) a + S8x2048.size a ≤ S8x67584.size a
  slices_S8x32x2048_o0_24_0_S8x1x2048 : S8x32x2048.Slices ![0, 24, 0] S8x1x2048
  inb_S8x67584_S8x2048_0_51200 : ∀ a, (![0, 51200] : Fin 2 → Nat) a + S8x2048.size a ≤ S8x67584.size a
  slices_S8x32x2048_o0_25_0_S8x1x2048 : S8x32x2048.Slices ![0, 25, 0] S8x1x2048
  inb_S8x67584_S8x2048_0_53248 : ∀ a, (![0, 53248] : Fin 2 → Nat) a + S8x2048.size a ≤ S8x67584.size a
  slices_S8x32x2048_o0_26_0_S8x1x2048 : S8x32x2048.Slices ![0, 26, 0] S8x1x2048
  inb_S8x67584_S8x2048_0_55296 : ∀ a, (![0, 55296] : Fin 2 → Nat) a + S8x2048.size a ≤ S8x67584.size a
  slices_S8x32x2048_o0_27_0_S8x1x2048 : S8x32x2048.Slices ![0, 27, 0] S8x1x2048
  inb_S8x67584_S8x2048_0_57344 : ∀ a, (![0, 57344] : Fin 2 → Nat) a + S8x2048.size a ≤ S8x67584.size a
  slices_S8x32x2048_o0_28_0_S8x1x2048 : S8x32x2048.Slices ![0, 28, 0] S8x1x2048
  inb_S8x67584_S8x2048_0_59392 : ∀ a, (![0, 59392] : Fin 2 → Nat) a + S8x2048.size a ≤ S8x67584.size a
  slices_S8x32x2048_o0_29_0_S8x1x2048 : S8x32x2048.Slices ![0, 29, 0] S8x1x2048
  inb_S8x67584_S8x2048_0_61440 : ∀ a, (![0, 61440] : Fin 2 → Nat) a + S8x2048.size a ≤ S8x67584.size a
  slices_S8x32x2048_o0_30_0_S8x1x2048 : S8x32x2048.Slices ![0, 30, 0] S8x1x2048
  inb_S8x67584_S8x2048_0_63488 : ∀ a, (![0, 63488] : Fin 2 → Nat) a + S8x2048.size a ≤ S8x67584.size a
  slices_S8x32x2048_o0_31_0_S8x1x2048 : S8x32x2048.Slices ![0, 31, 0] S8x1x2048
  inb_S8x67584_S8x2048_0_65536 : ∀ a, (![0, 65536] : Fin 2 → Nat) a + S8x2048.size a ≤ S8x67584.size a
  dot_S1024x2048_S32x2048_S1024x32_1_1_0_0_n_n_wf : DotDims.WF S1024x2048 S32x2048 S1024x32 [1] [1] [0] [0] [] []
  dot_S8x128x32_S8x128x2048_S8x32x2048_1_1_2_2_0_0_wf : DotDims.WF S8x128x32 S8x128x2048 S8x32x2048 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S64x128x2048.size a
  hwx0_0 : ∀ i : grid0.Coords, EltTy.bits .f32 = 32 ∨ (Rect.block (s := S64x128x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1.size a ≤ S64x128x1.size a
  hwx0_1 : ∀ i : grid0.Coords, EltTy.bits .f32 = 32 ∨ (Rect.block (s := S64x128x1) S8x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S32x2048.size a
  hwx0_3 : ∀ i : grid0.Coords, EltTy.bits .f32 = 32 ∨ (Rect.block (s := S32x2048) S32x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x2048.size a
  hwx0_4 : ∀ i : grid0.Coords, EltTy.bits .f32 = 32 ∨ (Rect.block (s := S32x2048) S32x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x67584.size a ≤ S64x67584.size a
  hwx0_5 : ∀ i : grid0.Coords, EltTy.bits .f32 = 32 ∨ (Rect.block (s := S64x67584) S8x67584.size (cc0_transform_5 i) (hinb0_5 i)).WholeWords (EltTy.packing .f32)

variable [Facts₀]

def dot_S1024x2048_S32x2048_S1024x32_1_1_0_0_n_n : DotDims S1024x2048 S32x2048 S1024x32 where
  lhsContracting := [1]
  rhsContracting := [1]
  lhsNonContracting := [0]
  rhsNonContracting := [0]
  lhsBatch := []
  rhsBatch := []
  wf := dot_S1024x2048_S32x2048_S1024x32_1_1_0_0_n_n_wf
def dot_S8x128x32_S8x128x2048_S8x32x2048_1_1_2_2_0_0 : DotDims S8x128x32 S8x128x2048 S8x32x2048 where
  lhsContracting := [1]
  rhsContracting := [1]
  lhsNonContracting := [2]
  rhsNonContracting := [2]
  lhsBatch := [0]
  rhsBatch := [0]
  wf := dot_S8x128x32_S8x128x2048_S8x32x2048_1_1_2_2_0_0_wf

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S8x67584.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x128x2048 : Shape := ⟨3, ![64, 128, 2048]⟩
abbrev S64 : Shape := ⟨1, ![64]⟩
abbrev S32x2048 : Shape := ⟨2, ![32, 2048]⟩
abbrev S128 : Shape := ⟨1, ![128]⟩
abbrev S1x128 : Shape := ⟨2, ![1, 128]⟩
abbrev S64x1 : Shape := ⟨2, ![64, 1]⟩
abbrev S64x128 : Shape := ⟨2, ![64, 128]⟩
abbrev S64x128x1 : Shape := ⟨3, ![64, 128, 1]⟩
abbrev S_ : Shape := ⟨0, ![]⟩
abbrev S64x2048 : Shape := ⟨2, ![64, 2048]⟩
abbrev S64x128x32 : Shape := ⟨3, ![64, 128, 32]⟩
abbrev S64x32x2048 : Shape := ⟨3, ![64, 32, 2048]⟩
abbrev S64x32 : Shape := ⟨2, ![64, 32]⟩
abbrev S64x32x1 : Shape := ⟨3, ![64, 32, 1]⟩
abbrev S1x32x2048 : Shape := ⟨3, ![1, 32, 2048]⟩
abbrev S64x65536 : Shape := ⟨2, ![64, 65536]⟩
abbrev S64x67584 : Shape := ⟨2, ![64, 67584]⟩

abbrev nBuf : Space → Nat
  | .hbm => 79
  | .vmem => 0
  | .smem => 0
  | _ => 0

abbrev bufTy : (tb : Table) → Fin (tcTables nBuf tb) → BufTy
  | .hbm, ⟨0, _⟩ => ⟨S64x128x2048, .f32⟩
  | .hbm, ⟨1, _⟩ => ⟨S64, .i32⟩
  | .hbm, ⟨2, _⟩ => ⟨S32x2048, .f32⟩
  | .hbm, ⟨3, _⟩ => ⟨S32x2048, .f32⟩
  | .hbm, ⟨4, _⟩ => ⟨S128, .i32⟩
  | .hbm, ⟨5, _⟩ => ⟨S1x128, .i32⟩
  | .hbm, ⟨6, _⟩ => ⟨S64x1, .i32⟩
  | .hbm, ⟨7, _⟩ => ⟨S64x128, .i32⟩
  | .hbm, ⟨8, _⟩ => ⟨S64x128, .i32⟩
  | .hbm, ⟨9, _⟩ => ⟨S64x128, .i1⟩
  | .hbm, ⟨10, _⟩ => ⟨S64x128, .f32⟩
  | .hbm, ⟨11, _⟩ => ⟨S64, .f32⟩
  | .hbm, ⟨12, _⟩ => ⟨S64x1, .f32⟩
  | .hbm, ⟨13, _⟩ => ⟨S64x128x1, .f32⟩
  | .hbm, ⟨14, _⟩ => ⟨S64x128x2048, .f32⟩
  | .hbm, ⟨15, _⟩ => ⟨S64x128x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S64x128x2048, .f32⟩
  | .hbm, ⟨21, _⟩ => ⟨S_, .f32⟩
  | .hbm, ⟨22, _⟩ => ⟨S64x128, .f32⟩
  | .hbm, ⟨23, _⟩ => ⟨S64x128x1, .f32⟩
  | .hbm, ⟨24, _⟩ => ⟨S64x128x1, .f32⟩
  | .hbm, ⟨25, _⟩ => ⟨S_, .f32⟩
  | .hbm, ⟨26, _⟩ => ⟨S64x128x1, .f32⟩
  | .hbm, ⟨27, _⟩ => ⟨S64x128x1, .f32⟩
  | .hbm, ⟨28, _⟩ => ⟨S64x128x2048, .f32⟩
  | .hbm, ⟨29, _⟩ => ⟨S64x128x2048, .f32⟩
  | .hbm, ⟨30, _⟩ => ⟨S64x128x32, .f32⟩
  | .hbm, ⟨31, _⟩ => ⟨S_, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128x1, .f32⟩
  | .hbm, ⟨37, _⟩ => ⟨S64x128x32, .f32⟩
  | .hbm, ⟨38, _⟩ => ⟨S64x128x32, .f32⟩
  | .hbm, ⟨39, _⟩ => ⟨S64x128x32, .f32⟩
  | .hbm, ⟨40, _⟩ => ⟨S_, .f32⟩
  | .hbm, ⟨41, _⟩ => ⟨S64x128, .f32⟩
  | .hbm, ⟨42, _⟩ => ⟨S64x128x1, .f32⟩
  | .hbm, ⟨43, _⟩ => ⟨S64x128x32, .f32⟩
  | .hbm, ⟨44, _⟩ => ⟨S64x128x32, .f32⟩
  | .hbm, ⟨45, _⟩ => ⟨S64x128x1, .f32⟩
  | .hbm, ⟨46, _⟩ => ⟨S64x128x32, .f32⟩
  | .hbm, ⟨47, _⟩ => ⟨S64x128x32, .f32⟩
  | .hbm, ⟨48, _⟩ => ⟨S64x32x2048, .f32⟩
  | .hbm, ⟨49, _⟩ => ⟨S_, .f32⟩
  | .hbm, ⟨50, _⟩ => ⟨S64x32, .f32⟩
  | .hbm, ⟨51, _⟩ => ⟨S64x32x1, .f32⟩
  | .hbm, ⟨52, _⟩ => ⟨S1x32x2048, .f32⟩
  | .hbm, ⟨53, _⟩ => ⟨S64x32x2048, .f32⟩
  | .hbm, ⟨54, _⟩ => ⟨S64x32x2048, .f32⟩
  | .hbm, ⟨55, _⟩ => ⟨S64x32x2048, .f32⟩
  | .hbm, ⟨56, _⟩ => ⟨S64x32x2048, .f32⟩
  | .hbm, ⟨57, _⟩ => ⟨S64x32x2048, .f32⟩
  | .hbm, ⟨58, _⟩ => ⟨S_, .f32⟩
  | .hbm, ⟨59, _⟩ => ⟨S64x32, .f32⟩
  | .hbm, ⟨60, _⟩ => ⟨S64x32x1, .f32⟩
  | .hbm, ⟨61, _⟩ => ⟨S64x32x1, .f32⟩
  | .hbm, ⟨62, _⟩ => ⟨S_, .f32⟩
  | .hbm, ⟨63, _⟩ => ⟨S64x32x1, .f32⟩
  | .hbm, ⟨64, _⟩ => ⟨S64x32x1, .f32⟩
  | .hbm, ⟨65, _⟩ => ⟨S64x32x2048, .f32⟩
  | .hbm, ⟨66, _⟩ => ⟨S64x32x2048, .f32⟩
  | .hbm, ⟨67, _⟩ => ⟨S64x65536, .f32⟩
  | .hbm, ⟨68, _⟩ => ⟨S64x65536, .f32⟩
  | .hbm, ⟨69, _⟩ => ⟨S_, .f32⟩
  | .hbm, ⟨70, _⟩ => ⟨S64, .f32⟩
  | .hbm, ⟨71, _⟩ => ⟨S64x1, .f32⟩
  | .hbm, ⟨72, _⟩ => ⟨S64x1, .f32⟩
  | .hbm, ⟨73, _⟩ => ⟨S_, .f32⟩
  | .hbm, ⟨74, _⟩ => ⟨S64x1, .f32⟩
  | .hbm, ⟨75, _⟩ => ⟨S64x1, .f32⟩
  | .hbm, ⟨76, _⟩ => ⟨S64x65536, .f32⟩
  | .hbm, ⟨77, _⟩ => ⟨S64x65536, .f32⟩
  | .hbm, ⟨78, _⟩ => ⟨S64x67584, .f32⟩
  | _, _ => ⟨S64x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S64x128_S64x128x1_0_1 : S64x128.BroadcastsInDim S64x128x1 (![0, 1] : Fin 2 → Fin S64x128x1.rank)
  bcast_S64x128x1_S64x128x2048_0_1_2 : S64x128x1.BroadcastsInDim S64x128x2048 (![0, 1, 2] : Fin 3 → Fin S64x128x2048.rank)
  reducesTo_S64x128x2048_S64x2048_d1 : S64x128x2048.ReducesTo [1] S64x2048
  h_S_ : 0 < S_.numel
  bcast_S64x1_S64x2048_0_1 : S64x1.BroadcastsInDim S64x2048 (![0, 1] : Fin 2 → Fin S64x2048.rank)
  reducesTo_S64x128x2048_S64x128_d2 : S64x128x2048.ReducesTo [2] S64x128
  bcast_S_S64x128x1 : S_.BroadcastsInDim S64x128x1 (![] : Fin 0 → Fin S64x128x1.rank)
  reducesTo_S64x128x32_S64x128_d2 : S64x128x32.ReducesTo [2] S64x128
  bcast_S_S64x128 : S_.BroadcastsInDim S64x128 (![] : Fin 0 → Fin S64x128.rank)
  bcast_S64x128x1_S64x128x32_0_1_2 : S64x128x1.BroadcastsInDim S64x128x32 (![0, 1, 2] : Fin 3 → Fin S64x128x32.rank)
  reducesTo_S64x128x32_S64x32_d1 : S64x128x32.ReducesTo [1] S64x32
  bcast_S64x32_S64x32x1_0_1 : S64x32.BroadcastsInDim S64x32x1 (![0, 1] : Fin 2 → Fin S64x32x1.rank)
  bcast_S32x2048_S1x32x2048_1_2 : S32x2048.BroadcastsInDim S1x32x2048 (![1, 2] : Fin 2 → Fin S1x32x2048.rank)
  bcast_S64x32x1_S64x32x2048_0_1_2 : S64x32x1.BroadcastsInDim S64x32x2048 (![0, 1, 2] : Fin 3 → Fin S64x32x2048.rank)
  bcast_S1x32x2048_S64x32x2048_0_1_2 : S1x32x2048.BroadcastsInDim S64x32x2048 (![0, 1, 2] : Fin 3 → Fin S64x32x2048.rank)
  reducesTo_S64x32x2048_S64x32_d2 : S64x32x2048.ReducesTo [2] S64x32
  bcast_S_S64x32x1 : S_.BroadcastsInDim S64x32x1 (![] : Fin 0 → Fin S64x32x1.rank)
  shapeCasts_S64x32x2048_S64x65536 : S64x32x2048.ShapeCasts S64x65536
  reducesTo_S64x65536_S64_d1 : S64x65536.ReducesTo [1] S64
  bcast_S_S64x1 : S_.BroadcastsInDim S64x1 (![] : Fin 0 → Fin S64x1.rank)
  bcast_S64x1_S64x65536_0_1 : S64x1.BroadcastsInDim S64x65536 (![0, 1] : Fin 2 → Fin S64x65536.rank)
  concatenates_S64x2048_S64x65536_S64x67584_d1 : Shape.Concatenates [S64x2048, S64x65536] S64x67584 1
  dot_S64x128x2048_S32x2048_S64x128x32_2_1_01_0_n_n_wf : DotDims.WF S64x128x2048 S32x2048 S64x128x32 [2] [1] [0, 1] [0] [] []
  dot_S64x128x32_S64x128x2048_S64x32x2048_1_1_2_2_0_0_wf : DotDims.WF S64x128x32 S64x128x2048 S64x32x2048 [1] [1] [2] [2] [0] [0]

variable [Facts₀]

def dot_S64x128x2048_S32x2048_S64x128x32_2_1_01_0_n_n : DotDims S64x128x2048 S32x2048 S64x128x32 where
  lhsContracting := [2]
  rhsContracting := [1]
  lhsNonContracting := [0, 1]
  rhsNonContracting := [0]
  lhsBatch := []
  rhsBatch := []
  wf := dot_S64x128x2048_S32x2048_S64x128x32_2_1_01_0_n_n_wf
def dot_S64x128x32_S64x128x2048_S64x32x2048_1_1_2_2_0_0 : DotDims S64x128x32 S64x128x2048 S64x32x2048 where
  lhsContracting := [1]
  rhsContracting := [1]
  lhsNonContracting := [2]
  rhsNonContracting := [2]
  lhsBatch := [0]
  rhsBatch := [0]
  wf := dot_S64x128x32_S64x128x2048_S64x32x2048_1_1_2_2_0_0_wf

class Facts : Prop extends Facts₀ where

variable [Facts]
-- ==== Proof.Spec.lean ====
/-
  The mathematics of the pooled descriptor, one batch row at a time, over the extended reals.

  A batch row is a matrix `x : 128 × 2048` of frames, a mask `mk : 128` (one where the frame is valid), the
  assignment weights `W : 32 × 2048` and the centroids `C : 32 × 2048`. Every frame is scaled to unit length,
  softly assigned to the 32 clusters, the masked assignments aggregate the residuals to the centroids, each
  cluster's residual row is scaled to unit length, and the whole 32 × 2048 table is scaled to unit length once more.

  The two programs differ only in HOW a vector is scaled to unit length, given the sum `s` of its squares:
  one multiplies by `rsqrt (max s ε²)`, the other divides by `max (√s) ε`. The functions below take that
  operation as a parameter `nrm`; `nrm_eq` says the two choices agree wherever `s` is a sum of squares.
-/
import Idealize.ShloMosaic.PureOps.Ideal
import Idealize.ShloMosaic.PureOps.Ideal.Laws
import Mathlib.Analysis.SpecialFunctions.Sqrt
import Mathlib.Data.EReal.Operations
import Mathlib.Algebra.BigOperators.Fin

noncomputable section

namespace Cert.Bridge

open Idealize.ShloMosaic

/-- The floor under a sum of squares on the multiplying side: exactly the square of `eps`. -/
def e2 : EReal := ((5316911940649 / 5316911983139663491615228241121378304 : ℝ) : EReal)

/-- The floor under a Euclidean length on the dividing side: the binary32 value nearest `1e-12`. -/
def eps : EReal := Ideal.ofBits .f32 0x2B8CBCCC#32

/-- Scaling by the reciprocal square root of the floored sum of squares. -/
def nrmK (x s : EReal) : EReal := x * Ideal.rsqrt (max s e2)

/-- Dividing by the floored square root of the sum of squares. -/
def nrmR (x s : EReal) : EReal := Ideal.div x (max (Ideal.sqrt s) eps)

/-- Batch row `8 t + r`: row `r` of the `t`-th block of eight rows. -/
def brow (t r : Fin 8) : Fin 64 := ⟨8 * t.val + r.val, by have := t.isLt; have := r.isLt; omega⟩

section Row

variable (nrm : EReal → EReal → EReal)
variable (x : Fin 128 → Fin 2048 → EReal) (mk : Fin 128 → EReal) (W C : Fin 32 → Fin 2048 → EReal)

/-- The sum of squares of frame `m`. -/
def sq (m : Fin 128) : EReal := ∑ d : Fin 2048, x m d * x m d

/-- Frame `m` scaled to unit length. -/
def xn (m : Fin 128) (d : Fin 2048) : EReal := nrm (x m d) (sq x m)

/-- The assignment logits: the unit frame against each cluster's weight row. -/
def lg (m : Fin 128) (k : Fin 32) : EReal := ∑ d : Fin 2048, xn nrm x m d * W k d

/-- The largest logit of a frame. -/
def mx (m : Fin 128) : EReal := (Finset.univ : Finset (Fin 32)).fold max ⊥ (fun k => lg nrm x W m k)

/-- The shifted exponentials of a frame's logits. -/
def ex (m : Fin 128) (k : Fin 32) : EReal := Ideal.exp (lg nrm x W m k - mx nrm x W m)

/-- Their sum. -/
def dn (m : Fin 128) : EReal := ∑ k : Fin 32, ex nrm x W m k

/-- The masked soft assignment of frame `m` to cluster `k`. -/
def av (m : Fin 128) (k : Fin 32) : EReal := Ideal.div (ex nrm x W m k) (dn nrm x W m) * mk m

/-- The assignment-weighted sum of the unit frames. -/
def ax (k : Fin 32) (d : Fin 2048) : EReal := ∑ m : Fin 128, av nrm x mk W m k * xn nrm x m d

/-- The total assignment mass of a cluster. -/
def asum (k : Fin 32) : EReal := ∑ m : Fin 128, av nrm x mk W m k

/-- The residual of a cluster: weighted frames minus the mass times the centroid. -/
def vl (k : Fin 32) (d : Fin 2048) : EReal := ax nrm x mk W k d - asum nrm x mk W k * C k d

/-- The sum of squares of a cluster's residual row. -/
def s2 (k : Fin 32) : EReal := ∑ d : Fin 2048, vl nrm x mk W C k d * vl nrm x mk W C k d

/-- The residual row scaled to unit length. -/
def vn (k : Fin 32) (d : Fin 2048) : EReal := nrm (vl nrm x mk W C k d) (s2 nrm x mk W C k)

/-- The sum of squares of the whole table of unit rows. -/
def s3 : EReal := ∑ k : Fin 32, ∑ d : Fin 2048, vn nrm x mk W C k d * vn nrm x mk W C k d

/-- The table scaled to unit length: the descriptor's cluster part. -/
def out (k : Fin 32) (d : Fin 2048) : EReal := nrm (vn nrm x mk W C k d) (s3 nrm x mk W C)

/-- The masked sum of the raw frames: the numerator of the average pool. -/
def num (d : Fin 2048) : EReal := ∑ m : Fin 128, x m d * mk m

end Row

end Cert.Bridge

end
-- ==== Proof.Blocks.lean ====
/-
  From the body's block to the whole output array.

  Grid point `t` stages rows `8 t … 8 t + 7` of the frames, the mask and the lengths, and the two tables whole;
  the body leaves in the output block, row by row, the average pool in columns `0 … 2047` and cluster `k`'s
  coordinates in columns `2048 (k + 1) … 2048 (k + 2) - 1`; the eight blocks tile the output array.
-/
import proofs.«404540_j55886114455955_4_alg».proof.Proof.Gen.KernelIdeal.Value
import proofs.«404540_j55886114455955_4_alg».proof.Proof.Spec
import Idealize.ShloMosaic.Lib.ValueIdx
import Idealize.ShloMosaic.Lib.ValueLayout
import Idealize.ShloMosaic.Lib.Pipeline.Value

noncomputable section

namespace Cert.Bridge.B

open Cert.KernelIdeal Cert.KernelIdeal.Gen Idealize.ShloMosaic Idealize.ShloMosaic.TcCoe Idealize.ShloMosaic.ValueIdx Idealize.SL.Sem Cert.Bridge
open Idealize.ShloMosaic.Pipeline (Dat)

/-! ## The body's output block, row by row -/

/-- The zero offsets of a rank-2 rectangle. -/
private theorem zero2 : (![0, 0] : Fin 2 → Nat) = fun _ => 0 := funext fun a => by fin_cases a <;> rfl
/-- The zero offsets of a rank-3 rectangle. -/
private theorem zero3 : (![0, 0, 0] : Fin 3 → Nat) = fun _ => 0 := funext fun a => by fin_cases a <;> rfl

/-- Row `k` of a `8 × 32 × 2048` value, sliced out and with its unit axis dropped, read at row `r`, coordinate `d`:
    the value at `(r, k, d)`. -/
private theorem slice_row_apply (v : S8x32x2048.Idx → EReal) (k : Nat) (hk : k < 32) (off : Fin 3 → Nat)
    (g0 : off 0 = 0) (g1 : off 1 = k) (g2 : off 2 = 0) (hs : S8x32x2048.Slices off S8x1x2048)
    (hc : S8x1x2048.ShapeCasts S8x2048) (x : S8x2048.Idx) :
    shapeCast S8x2048 (extractStridedSlice S8x1x2048 off v hs) hc x = v (ix3 (x 0) ⟨k, hk⟩ (x 1)) := by
  have h0 : (x 0).val < 8 := (x 0).isLt
  have h1 : (x 1).val < 2048 := (x 1).isLt
  refine (shapeCast_apply _ hc x (ix3 (x 0) (0 : Fin 1) (x 1)) ?_).trans ?_
  · rw [Shape.rowMajor_val_three, Shape.rowMajor_val_two]
    show ((x 0).val * 1 + 0) * 2048 + (x 1).val = (x 0).val * 2048 + (x 1).val
    omega
  · refine extractStridedSlice_apply off v hs _ _ fun a => ?_
    match a with
    | ⟨0, _⟩ => show (x 0).val = off 0 + (x 0).val; omega
    | ⟨1, _⟩ => show k = off 1 + 0; omega
    | ⟨2, _⟩ => show (x 1).val = off 2 + (x 1).val; omega

section Body

variable (x0 : FVec Ideal S8x128x2048 .f32) (x1 : FVec Ideal S8x128x1 .f32) (x2 : FVec Ideal S8x1 .f32)
  (x3 x4 : FVec Ideal S32x2048 .f32)

/-- Row `r`, column `j` of the output block: the average pool below column 2048, and from there on cluster
    `(j - 2048) / 2048` at coordinate `(j - 2048) % 2048`. -/
def blockOf (r : Fin 8) (j : Fin 67584) : EReal :=
  if h : j.val < 2048 then k0_pay9 (F := Ideal) x0 x1 x2 (ix2 r ⟨j.val, h⟩)
  else k0_pay14 (F := Ideal) x4 (k0_pay12 (F := Ideal) x0 x1 x3) (k0_pay13 (F := Ideal) x0 x1 x3)
    (ix3 r ⟨(j.val - 2048) / 2048, by have := j.isLt; omega⟩ ⟨(j.val - 2048) % 2048, Nat.mod_lt _ (by decide)⟩)

/-- The store of the average pool, at its own index, is the block's row and column under it. -/
private theorem piece_pool (off : Fin 2 → Nat) (inb : ∀ a, off a + S8x2048.size a ≤ S8x67584.size a) (g0 : off 0 = 0) (g1 : off 1 = 0)
    (x : S8x2048.Idx) :
    k0_pay9 (F := Ideal) x0 x1 x2 x
      = blockOf x0 x1 x2 x3 x4 ((Rect.unit (s := S8x67584) off S8x2048.size inb).emb x 0) ((Rect.unit (s := S8x67584) off S8x2048.size inb).emb x 1) := by
  have h0 : (x 0).val < 8 := (x 0).isLt
  have h1 : (x 1).val < 2048 := (x 1).isLt
  have e1 : ((Rect.unit (s := S8x67584) off S8x2048.size inb).emb x 1).val = off 1 + 1 * (x 1).val := rfl
  have e0 : ((Rect.unit (s := S8x67584) off S8x2048.size inb).emb x 0).val = off 0 + 1 * (x 0).val := rfl
  unfold blockOf
  rw [dif_pos (by rw [e1]; omega)]
  refine congrArg _ (funext fun a => ?_)
  match a with
  | ⟨0, _⟩ => apply Fin.ext; show (x 0).val = _; rw [e0]; omega
  | ⟨1, _⟩ => apply Fin.ext; show (x 1).val = _; rw [e1]; omega

/-- The store of a cluster's row (cluster `off3 1`, through columns `2048 (off3 1 + 1)` on), at its own index, is the
    block's row and column under it. -/
private theorem piece_cluster (off : Fin 2 → Nat) (off3 : Fin 3 → Nat)
    (inb : ∀ a, off a + S8x2048.size a ≤ S8x67584.size a) (hs : S8x32x2048.Slices off3 S8x1x2048)
    (hc : S8x1x2048.ShapeCasts S8x2048)
    (g0 : off 0 = 0) (q0 : off3 0 = 0) (q2 : off3 2 = 0) (hk : off3 1 < 32) (g1 : off 1 = 2048 * (off3 1 + 1))
    (x : S8x2048.Idx) :
    shapeCast S8x2048 (extractStridedSlice S8x1x2048 off3
        (k0_pay14 (F := Ideal) x4 (k0_pay12 (F := Ideal) x0 x1 x3) (k0_pay13 (F := Ideal) x0 x1 x3)) hs) hc x
      = blockOf x0 x1 x2 x3 x4 ((Rect.unit (s := S8x67584) off S8x2048.size inb).emb x 0) ((Rect.unit (s := S8x67584) off S8x2048.size inb).emb x 1) := by
  have h0 : (x 0).val < 8 := (x 0).isLt
  have h1 : (x 1).val < 2048 := (x 1).isLt
  have e1 : ((Rect.unit (s := S8x67584) off S8x2048.size inb).emb x 1).val = off 1 + 1 * (x 1).val := rfl
  have e0 : ((Rect.unit (s := S8x67584) off S8x2048.size inb).emb x 0).val = off 0 + 1 * (x 0).val := rfl
  refine (slice_row_apply _ (off3 1) hk off3 q0 rfl q2 hs hc x).trans ?_
  unfold blockOf
  rw [dif_neg (by rw [e1]; omega)]
  refine congrArg _ (funext fun a => ?_)
  match a with
  | ⟨0, _⟩ => apply Fin.ext; show (x 0).val = _; rw [e0]; omega
  | ⟨1, _⟩ => apply Fin.ext; show off3 1 = (_ - 2048) / 2048; rw [e1]; omega
  | ⟨2, _⟩ => apply Fin.ext; show (x 1).val = (_ - 2048) % 2048; rw [e1]; omega

/-- The body's thirty-three stores, read at a row and a column. -/
theorem out0_5_apply (r : Fin 8) (j : Fin 67584) :
    out0_5 (F := Ideal) x0 x1 x2 x3 x4 (ix2 r j) = blockOf x0 x1 x2 x3 x4 r j := by
  have l0 : View.ld (Val := Elt Ideal) (e' := .f32) x0 r0_0 = x0 := View.ld_unit_zero (Val := Elt Ideal) (e := .f32) (S := S8x128x2048) zero3 _ x0
  have l1 : View.ld (Val := Elt Ideal) (e' := .f32) x1 r0_1 = x1 := View.ld_unit_zero (Val := Elt Ideal) (e := .f32) (S := S8x128x1) zero3 _ x1
  have l2 : View.ld (Val := Elt Ideal) (e' := .f32) x2 r0_2 = x2 := View.ld_unit_zero (Val := Elt Ideal) (e := .f32) (S := S8x1) zero2 _ x2
  have l3 : View.ld (Val := Elt Ideal) (e' := .f32) x3 r0_3 = x3 := View.ld_unit_zero (Val := Elt Ideal) (e := .f32) (S := S32x2048) zero2 _ x3
  have l4 : View.ld (Val := Elt Ideal) (e' := .f32) x4 r0_3 = x4 := View.ld_unit_zero (Val := Elt Ideal) (e := .f32) (S := S32x2048) zero2 _ x4
  unfold out0_5
  rw [l0, l1, l2, l3, l4]
  refine View.canon_apply_of_pieces (Val := Elt Ideal) (S := S8x67584) (e := .f32) (fun y => blockOf x0 x1 x2 x3 x4 (y 0) (y 1)) _ ?_ (ix2 r j) (cover0_5 _ _ _ _ _ _ _ _ _ _ _ _ _ _ _ _ _ _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  rotate_right
  · intro x
    exact piece_pool x0 x1 x2 x3 x4 _ (by decide) (by decide) (by decide) x
  all_goals
    intro x
    exact piece_cluster x0 x1 x2 x3 x4 _ _ (by decide) (by decide) (by decide) (by decide) (by decide) (by decide) (by decide) (by decide) x

end Body

/-! ## The staged blocks, read off the arrays the region finds -/

variable (m : (ℓ : Loc nD τ sig) → Buf (Elt Ideal) ℓ)

/-- The block of frames at point `t`. -/
abbrev blk0 (c : Dev nD) (t : Fin 8) : FVec Ideal S8x128x2048 .f32 := iblk m c 0 t
/-- The block of the mask at point `t`. -/
abbrev blk1 (c : Dev nD) (t : Fin 8) : FVec Ideal S8x128x1 .f32 := iblk m c 1 t
/-- The block of the lengths at point `t`. -/
abbrev blk2 (c : Dev nD) (t : Fin 8) : FVec Ideal S8x1 .f32 := iblk m c 2 t
/-- The weights, whole, at every point. -/
abbrev blk3 (c : Dev nD) (t : Fin 8) : FVec Ideal S32x2048 .f32 := iblk m c 3 t
/-- The centroids, whole, at every point. -/
abbrev blk4 (c : Dev nD) (t : Fin 8) : FVec Ideal S32x2048 .f32 := iblk m c 4 t

/-- The frames the region finds. -/
abbrev arrX (c : Dev nD) : FVec Ideal S64x128x2048 .f32 := V m c main_arg0
/-- The mask the region finds (the host operations before it wrote it). -/
abbrev arrM (c : Dev nD) : FVec Ideal S64x128x1 .f32 := V m c main_v7
/-- The lengths as floats the region finds. -/
abbrev arrL (c : Dev nD) : FVec Ideal S64x1 .f32 := V m c main_v9
/-- The weights the region finds. -/
abbrev arrW (c : Dev nD) : FVec Ideal S32x2048 .f32 := V m c main_arg2
/-- The centroids the region finds. -/
abbrev arrC (c : Dev nD) : FVec Ideal S32x2048 .f32 := V m c main_arg3

/-- The index maps over the grid: the windows of the frames, the mask, the lengths and the output move one block
    of eight rows per point and stay at block zero on their other axes; the two tables' windows stay at block zero. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_apply (c : Dev nD) (t r : Fin 8) (mm : Fin 128) (d : Fin 2048) :
    blk0 m c t (ix3 r mm d) = arrX m c (ix3 (brow t r) mm d) := by
  obtain ⟨e0, e1, e2, -⟩ := idx_facts t
  show V m c main_arg0 (((cfg0.win 0).blk t).view.emb (ix3 r mm d)) = V m c main_arg0 (ix3 (brow t r) mm d)
  refine congrArg _ (funext fun a => Fin.ext ?_)
  match a with
  | ⟨0, _⟩ => show win0_0.index t (0 : Fin 3) * 8 + 1 * r.val = 8 * t.val + r.val; rw [e0]; omega
  | ⟨1, _⟩ => show win0_0.index t (1 : Fin 3) * 128 + 1 * mm.val = mm.val; rw [e1]; omega
  | ⟨2, _⟩ => show win0_0.index t (2 : Fin 3) * 2048 + 1 * d.val = d.val; rw [e2]; omega

theorem blk1_apply (c : Dev nD) (t r : Fin 8) (mm : Fin 128) :
    blk1 m c t (ix3 r mm 0) = arrM m c (ix3 (brow t r) mm 0) := by
  obtain ⟨-, -, -, e0, e1, e2, -⟩ := idx_facts t
  show V m c main_v7 (((cfg0.win 1).blk t).view.emb (ix3 r mm 0)) = V m c main_v7 (ix3 (brow t r) mm 0)
  refine congrArg _ (funext fun a => Fin.ext ?_)
  match a with
  | ⟨0, _⟩ => show win0_1.index t (0 : Fin 3) * 8 + 1 * r.val = 8 * t.val + r.val; rw [e0]; omega
  | ⟨1, _⟩ => show win0_1.index t (1 : Fin 3) * 128 + 1 * mm.val = mm.val; rw [e1]; omega
  | ⟨2, _⟩ => show win0_1.index t (2 : Fin 3) * 1 + 1 * 0 = 0; rw [e2]

theorem blk2_apply (c : Dev nD) (t r : Fin 8) :
    blk2 m c t (ix2 r 0) = arrL m c (ix2 (brow t r) 0) := by
  obtain ⟨-, -, -, -, -, -, e0, e1, -⟩ := idx_facts t
  show V m c main_v9 (((cfg0.win 2).blk t).view.emb (ix2 r 0)) = V m c main_v9 (ix2 (brow t r) 0)
  refine congrArg _ (funext fun a => Fin.ext ?_)
  match a with
  | ⟨0, _⟩ => show win0_2.index t (0 : Fin 2) * 8 + 1 * r.val = 8 * t.val + r.val; rw [e0]; omega
  | ⟨1, _⟩ => show win0_2.index t (1 : Fin 2) * 1 + 1 * 0 = 0; rw [e1]

theorem blk3_eq (c : Dev nD) (t : Fin 8) : blk3 m c t = arrW m c := by
  obtain ⟨-, -, -, -, -, -, -, -, e0, e1, -⟩ := idx_facts t
  funext y
  show V m c main_arg2 (((cfg0.win 3).blk t).view.emb y) = V m c main_arg2 y
  refine congrArg _ (funext fun a => Fin.ext ?_)
  match a with
  | ⟨0, _⟩ => show win0_3.index t (0 : Fin 2) * 32 + 1 * (y 0).val = (y 0).val; rw [e0]; omega
  | ⟨1, _⟩ => show win0_3.index t (1 : Fin 2) * 2048 + 1 * (y 1).val = (y 1).val; rw [e1]; omega

theorem blk4_eq (c : Dev nD) (t : Fin 8) : blk4 m c t = arrC m c := by
  obtain ⟨-, -, -, -, -, -, -, -, -, -, e0, e1, -⟩ := idx_facts t
  funext y
  show V m c main_arg3 (((cfg0.win 4).blk t).view.emb y) = V m c main_arg3 y
  refine congrArg _ (funext fun a => Fin.ext ?_)
  match a with
  | ⟨0, _⟩ => show win0_4.index t (0 : Fin 2) * 32 + 1 * (y 0).val = (y 0).val; rw [e0]; omega
  | ⟨1, _⟩ => show win0_4.index t (1 : Fin 2) * 2048 + 1 * (y 1).val = (y 1).val; rw [e1]; omega

/-! ## The blocks tile the output array -/

/-- An index of the output array is in point `t`'s block iff each coordinate is in the block's range on its axis. -/
private theorem mem_blk5 (t : Fin cfg0.N) (i : S64x67584.Idx) :
    i ∈ ((cfg0.win 5).blk t).view.set ↔ ∀ a : Fin 2, win0_5.index t a * S8x67584.size a ≤ (i a).val ∧ (i a).val < win0_5.index t a * S8x67584.size a + S8x67584.size a := by
  show i ∈ ((View.whole main_v10).slice (win0_5.rect t)).set ↔ _
  rw [View.set_slice_whole, Rect.mem_set_unit]
  exact Iff.rfl

/-- If every point's block, row by row, is the matching rows of one array `G`, the output array after the run is `G`. -/
theorem final_of (c : Dev nD) (G : FVec Ideal S64x67584 .f32)
    (hG : ∀ (t r : Fin 8) (j : Fin 67584),
      out0_5 (F := Ideal) (blk0 m c t) (blk1 m c t) (blk2 m c t) (blk3 m c t) (blk4 m c t) (ix2 r j) = G (ix2 (brow t r) j)) :
    (dats m 0 c).arrAt 5 cfg0.N = G := by
  refine (dats m 0 c).arrAt_eq_of_cover 5 G (fun t _ => ?_) (fun i => ?_)
  · -- what point `t` writes back is rows `8 t … 8 t + 7` of `G`
    obtain ⟨-, -, -, -, -, -, -, -, -, -, -, -, e0, e1⟩ := idx_facts t
    rw [Value.flushed5]
    funext y
    show out0_5 (F := Ideal) (blk0 m c t) (blk1 m c t) (blk2 m c t) (blk3 m c t) (blk4 m c t) y = G (((cfg0.win 5).blk t).view.emb y)
    refine ((congrArg _ (eq_ix2 y)).trans (hG t (y 0) (y 1))).trans ?_
    refine congrArg G (funext fun a => Fin.ext ?_)
    match a with
    | ⟨0, _⟩ => show 8 * t.val + (y 0).val = win0_5.index t (0 : Fin 2) * 8 + 1 * (y 0).val; rw [e0]; omega
    | ⟨1, _⟩ => show (y 1).val = win0_5.index t (1 : Fin 2) * 67584 + 1 * (y 1).val; rw [e1]; omega
  · -- row `b` of the array is in the block of point `b / 8`
    have hi0 : (i 0).val < 64 := (i 0).isLt
    have hi1 : (i 1).val < 67584 := (i 1).isLt
    have ht : (i 0).val / 8 < 8 := by omega
    obtain ⟨-, -, -, -, -, -, -, -, -, -, -, -, e0, e1⟩ := idx_facts ⟨(i 0).val / 8, ht⟩
    refine ⟨⟨(i 0).val / 8, ht⟩, flush0_5 _, ?_⟩
    rw [mem_blk5]
    intro a
    match a with
    | ⟨0, _⟩ =>
      show win0_5.index ⟨(i 0).val / 8, ht⟩ (0 : Fin 2) * 8 ≤ (i 0).val ∧ (i 0).val < win0_5.index ⟨(i 0).val / 8, ht⟩ (0 : Fin 2) * 8 + 8
      rw [e0]; show (i 0).val / 8 * 8 ≤ (i 0).val ∧ (i 0).val < (i 0).val / 8 * 8 + 8; omega
    | ⟨1, _⟩ =>
      show win0_5.index ⟨(i 0).val / 8, ht⟩ (1 : Fin 2) * 67584 ≤ (i 1).val ∧ (i 1).val < win0_5.index ⟨(i 0).val / 8, ht⟩ (1 : Fin 2) * 67584 + 67584
      rw [e1]; omega

end Cert.Bridge.B

end
-- ==== Proof.KPayA.lean ====
/-
  The kernel body's values at one row of its batch block.

  The body receives a block of eight batch rows. Each of its payloads, read at row `r` of the block, is the
  row-wise function of Spec.lean applied to row `r` of the block's frames and mask, with the multiplying
  normaliser `nrmK`.
-/
import proofs.«404540_j55886114455955_4_alg».proof.Proof.Gen.KernelIdeal.Skeleton
import proofs.«404540_j55886114455955_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.K

open Cert.KernelIdeal Cert.KernelIdeal.Gen Idealize.ShloMosaic Idealize.ShloMosaic.ValueIdx Cert.Bridge

/-! ## Layout operations at literal coordinates -/

section Layout
variable {α : Type}

/-- A column vector broadcast along the lanes reads its row's one entry. -/
private theorem bcast_lane2048 (v : S8x128x1.Idx → α) (h : S8x128x1.Broadcasts S8x128x2048) (r : Fin 8) (m : Fin 128) (d : Fin 2048) :
    broadcastTo S8x128x2048 v h (ix3 r m d) = v (ix3 r m 0) :=
  broadcastTo_apply v h _ _ (fun a => match a with
    | ⟨0, _⟩ => by show r.val = if (8 : Nat) = 1 then 0 else r.val; rw [if_neg (by decide)]
    | ⟨1, _⟩ => by show m.val = if (128 : Nat) = 1 then 0 else m.val; rw [if_neg (by decide)]
    | ⟨2, _⟩ => by show 0 = if (1 : Nat) = 1 then 0 else d.val; rw [if_pos rfl])

/-- The same along 32 lanes. -/
private theorem bcast_lane32 (v : S8x128x1.Idx → α) (h : S8x128x1.Broadcasts S8x128x32) (r : Fin 8) (m : Fin 128) (k : Fin 32) :
    broadcastTo S8x128x32 v h (ix3 r m k) = v (ix3 r m 0) :=
  broadcastTo_apply v h _ _ (fun a => match a with
    | ⟨0, _⟩ => by show r.val = if (8 : Nat) = 1 then 0 else r.val; rw [if_neg (by decide)]
    | ⟨1, _⟩ => by show m.val = if (128 : Nat) = 1 then 0 else m.val; rw [if_neg (by decide)]
    | ⟨2, _⟩ => by show 0 = if (1 : Nat) = 1 then 0 else k.val; rw [if_pos rfl])

/-- A per-row scalar broadcast along the lanes reads the row's entry. -/
private theorem bcast_row2048 (v : S8x1.Idx → α) (h : S8x1.Broadcasts S8x2048) (r : Fin 8) (d : Fin 2048) :
    broadcastTo S8x2048 v h (ix2 r d) = v (ix2 r 0) :=
  broadcastTo_apply v h _ _ (fun a => match a with
    | ⟨0, _⟩ => by show r.val = if (8 : Nat) = 1 then 0 else r.val; rw [if_neg (by decide)]
    | ⟨1, _⟩ => by show 0 = if (1 : Nat) = 1 then 0 else d.val; rw [if_pos rfl])

/-- Adding a trailing unit axis keeps the entry. -/
private theorem cast_addUnit (v : S8x128.Idx → α) (h : S8x128.ShapeCasts S8x128x1) (r : Fin 8) (m : Fin 128) :
    shapeCast S8x128x1 v h (ix3 r m 0) = v (ix2 r m) :=
  shapeCast_apply v h _ _ (by
    rw [Shape.rowMajor_val_two, Shape.rowMajor_val_three]
    show r.val * 128 + m.val = (r.val * 128 + m.val) * 1 + 0
    omega)

/-- A shape cast to the same shape keeps the entry (rank 3). -/
private theorem cast_same3 (v : S8x128x1.Idx → α) (h : S8x128x1.ShapeCasts S8x128x1) (j : S8x128x1.Idx) :
    shapeCast S8x128x1 v h j = v j :=
  shapeCast_apply v h _ _ rfl

/-- A shape cast to the same shape keeps the entry (rank 2). -/
private theorem cast_same2 (v : S8x1.Idx → α) (h : S8x1.ShapeCasts S8x1) (j : S8x1.Idx) :
    shapeCast S8x1 v h j = v j :=
  shapeCast_apply v h _ _ rfl

/-- Flattening the block's rows: row `r * 128 + m` of the flat matrix is frame `m` of block row `r`. -/
private theorem cast_flat (v : S8x128x2048.Idx → α) (h : S8x128x2048.ShapeCasts S1024x2048) (r : Fin 8) (m : Fin 128) (d : Fin 2048)
    (hlt : r.val * 128 + m.val < 1024) :
    shapeCast S1024x2048 v h (ix2 ⟨r.val * 128 + m.val, hlt⟩ d) = v (ix3 r m d) :=
  shapeCast_apply v h _ _ (by
    rw [Shape.rowMajor_val_two, Shape.rowMajor_val_three]
    show (r.val * 128 + m.val) * 2048 + d.val = (r.val * 128 + m.val) * 2048 + d.val
    rfl)

/-- Unflattening: entry `(r, m, k)` is row `r * 128 + m` of the flat matrix. -/
private theorem cast_unflat (v : S1024x32.Idx → α) (h : S1024x32.ShapeCasts S8x128x32) (r : Fin 8) (m : Fin 128) (k : Fin 32)
    (hlt : r.val * 128 + m.val < 1024) :
    shapeCast S8x128x32 v h (ix3 r m k) = v (ix2 ⟨r.val * 128 + m.val, hlt⟩ k) :=
  shapeCast_apply v h _ _ (by
    rw [Shape.rowMajor_val_two, Shape.rowMajor_val_three]
    show (r.val * 128 + m.val) * 32 + k.val = (r.val * 128 + m.val) * 32 + k.val
    rfl)

end Layout

/-! ## Reductions at literal coordinates -/

section Reduce

/-- The sum over the 2048 lanes of frame `m` of block row `r`. -/
private theorem sum_lane2048 (v : FVec Ideal S8x128x2048 .f32) (h : S8x128x2048.Reduces [2] S8x128) (hφ : FKind.Formats .f32)
    (hacc : (0x00000000#32 : BitVec 32) = FKind.add.neutral .f32 hφ) (r : Fin 8) (m : Fin 128) :
    multiReduction .add [2] S8x128 v 0x00000000#32 h hφ hacc (ix2 r m) = ∑ d : Fin 2048, v (ix3 r m d) := by
  refine (Ideal.multiReduction_add_single v _ h hφ hacc (ix2 r m)).trans ?_
  refine Finset.sum_congr rfl fun d _ => congrArg v ?_
  funext a
  match a with
  | ⟨0, _⟩ => rfl
  | ⟨1, _⟩ => rfl
  | ⟨2, _⟩ => rfl

/-- The sum over the 128 frames of block row `r`, at lane `d`. -/
private theorem sum_frames (v : FVec Ideal S8x128x2048 .f32) (h : S8x128x2048.Reduces [1] S8x2048) (hφ : FKind.Formats .f32)
    (hacc : (0x00000000#32 : BitVec 32) = FKind.add.neutral .f32 hφ) (r : Fin 8) (d : Fin 2048) :
    multiReduction .add [1] S8x2048 v 0x00000000#32 h hφ hacc (ix2 r d) = ∑ m : Fin 128, v (ix3 r m d) := by
  refine (Ideal.multiReduction_add_single v _ h hφ hacc (ix2 r d)).trans ?_
  refine Finset.sum_congr rfl fun m _ => congrArg v ?_
  funext a
  match a with
  | ⟨0, _⟩ => rfl
  | ⟨1, _⟩ => rfl
  | ⟨2, _⟩ => rfl

/-- The sum over the 32 clusters of frame `m` of block row `r`. -/
private theorem sum_lane32 (v : FVec Ideal S8x128x32 .f32) (h : S8x128x32.Reduces [2] S8x128) (hφ : FKind.Formats .f32)
    (hacc : (0x00000000#32 : BitVec 32) = FKind.add.neutral .f32 hφ) (r : Fin 8) (m : Fin 128) :
    multiReduction .add [2] S8x128 v 0x00000000#32 h hφ hacc (ix2 r m) = ∑ k : Fin 32, v (ix3 r m k) := by
  refine (Ideal.multiReduction_add_single v _ h hφ hacc (ix2 r m)).trans ?_
  refine Finset.sum_congr rfl fun k _ => congrArg v ?_
  funext a
  match a with
  | ⟨0, _⟩ => rfl
  | ⟨1, _⟩ => rfl
  | ⟨2, _⟩ => rfl

/-- The pattern of minus infinity is the bottom element. -/
private theorem ofBits_neg_inf : FloatOps.ofBits (F := Ideal) .f32 0xFF800000#32 = ⊥ := by
  show Ideal.ofBits .f32 0xFF800000#32 = ⊥
  simp [Ideal.ofBits, Ideal.ieee]

/-- The maximum over the 32 clusters of frame `m` of block row `r`. -/
private theorem max_lane32 (v : FVec Ideal S8x128x32 .f32) (h : S8x128x32.Reduces [2] S8x128) (hφ : FKind.Formats .f32)
    (hacc : (0xFF800000#32 : BitVec 32) = FKind.maximumf.neutral .f32 hφ) (r : Fin 8) (m : Fin 128) :
    multiReduction .maximumf [2] S8x128 v 0xFF800000#32 h hφ hacc (ix2 r m)
      = (Finset.univ : Finset (Fin 32)).fold max ⊥ (fun k => v (ix3 r m k)) := by
  refine (Ideal.multiReduction_maximumf_single v _ h hφ hacc (ix2 r m)).trans ?_
  have hfun : (v ∘ h.lift (ix2 r m)) = fun k : Fin 32 => v (ix3 r m k) := by
    funext k
    refine congrArg v ?_
    funext a
    match a with
    | ⟨0, _⟩ => rfl
    | ⟨1, _⟩ => rfl
    | ⟨2, _⟩ => rfl
  rw [ofBits_neg_inf]
  exact congrArg (fun f => (Finset.univ : Finset (Fin 32)).fold max ⊥ f) hfun

end Reduce

/-! ## The flat matrix product at literal coordinates -/

section Matmul

private theorem dW_lhs0 (i : S1024x32.Idx) (q : dot_S1024x2048_S32x2048_S1024x32_1_1_0_0_n_n.contr.Idx) : (dot_S1024x2048_S32x2048_S1024x32_1_1_0_0_n_n.lhsIdx i q 0).val = (i 0).val := by
  unfold DotDims.lhsIdx
  rw [dif_neg (show ¬(0 : Fin S1024x2048.rank) ∈ dot_S1024x2048_S32x2048_S1024x32_1_1_0_0_n_n.lhsBatch by decide),
    dif_pos (show (0 : Fin S1024x2048.rank) ∈ dot_S1024x2048_S32x2048_S1024x32_1_1_0_0_n_n.lhsNonContracting by decide)]
  rfl

private theorem dW_lhs1 (i : S1024x32.Idx) (q : dot_S1024x2048_S32x2048_S1024x32_1_1_0_0_n_n.contr.Idx) : (dot_S1024x2048_S32x2048_S1024x32_1_1_0_0_n_n.lhsIdx i q 1).val = (q ⟨0, by decide⟩).val :=
  dot_S1024x2048_S32x2048_S1024x32_1_1_0_0_n_n.lhsIdx_val_of_single rfl i q

private theorem dW_rhs0 (i : S1024x32.Idx) (q : dot_S1024x2048_S32x2048_S1024x32_1_1_0_0_n_n.contr.Idx) : (dot_S1024x2048_S32x2048_S1024x32_1_1_0_0_n_n.rhsIdx i q 0).val = (i 1).val := by
  unfold DotDims.rhsIdx
  rw [dif_neg (show ¬(0 : Fin S32x2048.rank) ∈ dot_S1024x2048_S32x2048_S1024x32_1_1_0_0_n_n.rhsBatch by decide),
    dif_pos (show (0 : Fin S32x2048.rank) ∈ dot_S1024x2048_S32x2048_S1024x32_1_1_0_0_n_n.rhsNonContracting by decide)]
  rfl

private theorem dW_rhs1 (i : S1024x32.Idx) (q : dot_S1024x2048_S32x2048_S1024x32_1_1_0_0_n_n.contr.Idx) : (dot_S1024x2048_S32x2048_S1024x32_1_1_0_0_n_n.rhsIdx i q 1).val = (q ⟨0, by decide⟩).val :=
  dot_S1024x2048_S32x2048_S1024x32_1_1_0_0_n_n.rhsIdx_val_of_single rfl i q

/-- Row `i` of the flat frames against row `k` of the weights: the sum over the 2048 lanes. -/
private theorem matmul_flat (A : FVec Ideal S1024x2048 .f32) (W : FVec Ideal S32x2048 .f32) (i : Fin 1024) (k : Fin 32) :
    matmul dot_S1024x2048_S32x2048_S1024x32_1_1_0_0_n_n none A W (constant S1024x32 .f32 0x00000000#32) (ix2 i k) = ∑ d : Fin 2048, A (ix2 i d) * W (ix2 k d) := by
  simp only [matmul]
  rw [Ideal.matmul_constant_zero_apply, ← Equiv.sum_comp (contrEquiv1 dot_S1024x2048_S32x2048_S1024x32_1_1_0_0_n_n 2048 rfl rfl).symm]
  refine Finset.sum_congr rfl fun d _ => ?_
  have hk := contrEquiv1_symm_val dot_S1024x2048_S32x2048_S1024x32_1_1_0_0_n_n 2048 rfl rfl d
  have el : dot_S1024x2048_S32x2048_S1024x32_1_1_0_0_n_n.lhsIdx (ix2 i k) ((contrEquiv1 dot_S1024x2048_S32x2048_S1024x32_1_1_0_0_n_n 2048 rfl rfl).symm d) = ix2 i d := funext fun a => Fin.ext (by
    match a with
    | ⟨0, _⟩ => exact dW_lhs0 _ _
    | ⟨1, _⟩ => exact (dW_lhs1 _ _).trans hk)
  have er : dot_S1024x2048_S32x2048_S1024x32_1_1_0_0_n_n.rhsIdx (ix2 i k) ((contrEquiv1 dot_S1024x2048_S32x2048_S1024x32_1_1_0_0_n_n 2048 rfl rfl).symm d) = ix2 k d := funext fun a => Fin.ext (by
    match a with
    | ⟨0, _⟩ => exact dW_rhs0 _ _
    | ⟨1, _⟩ => exact (dW_rhs1 _ _).trans hk)
  rw [el, er]

end Matmul

/-! ## Two more pointwise operations at an index -/

section Pointwise
variable {s : Shape} {φ : FTy}

/-- A reciprocal square root at an index is that of the element. -/
private theorem rsqrt_apply (a : FVec Ideal s φ) (i : s.Idx) : rsqrt a i = Ideal.rsqrt (a i) := rfl
/-- An exponential at an index is that of the element. -/
private theorem exp_apply (a : FVec Ideal s φ) (i : s.Idx) : exp a i = Ideal.exp (a i) := rfl

end Pointwise

variable (x0 : FVec Ideal S8x128x2048 .f32) (x1 : FVec Ideal S8x128x1 .f32) (x2 : FVec Ideal S8x1 .f32)
  (x3 x4 : FVec Ideal S32x2048 .f32)

/-- Row `r` of a block of frames. -/
def rowX (r : Fin 8) : Fin 128 → Fin 2048 → EReal := fun m d => x0 (ix3 r m d)
/-- Row `r` of a block of the mask. -/
def rowM (r : Fin 8) : Fin 128 → EReal := fun m => x1 (ix3 r m 0)
/-- A 32 × 2048 table as a function of its two coordinates. -/
def matOf (w : FVec Ideal S32x2048 .f32) : Fin 32 → Fin 2048 → EReal := fun k d => w (ix2 k d)

/-- The named floor is the exact square of the dividing side's floor. -/
theorem eps_sq_eq : Named.named (F := Ideal) Cert.KernelIdeal.κ "eps_sq" (φ := .f32) 0x179ABE15#32 = e2 := rfl

/-- The average pool's payload: the masked sum of the raw frames over the floored count. -/
theorem pay9_apply (r : Fin 8) (d : Fin 2048) :
    k0_pay9 (F := Ideal) x0 x1 x2 (ix2 r d)
      = Ideal.div (num (rowX x0 r) (rowM x1 r) d) (max (x2 (ix2 r 0)) (Ideal.ofBits .f32 0x3F800000#32)) := by
  unfold k0_pay9 k0_pay8
  simp only [divf_apply, bcast_row2048, maximumf_apply, broadcast_apply, cast_same2]
  refine congrArg (fun s => Ideal.div s (max (x2 (ix2 r 0)) (Ideal.ofBits .f32 0x3F800000#32))) ?_
  refine (sum_frames _ _ _ _ r d).trans ?_
  refine Finset.sum_congr rfl fun m _ => ?_
  simp only [mulf_apply, bcast_lane2048, cast_same3]
  rfl

/-- The unit frames. -/
theorem pay10_apply (r : Fin 8) (m : Fin 128) (d : Fin 2048) :
    k0_pay10 (F := Ideal) x0 (ix3 r m d) = xn nrmK (rowX x0 r) m d := by
  unfold k0_pay10
  simp only [mulf_apply, bcast_lane2048, rsqrt_apply, maximumf_apply, broadcast_apply, cast_addUnit, eps_sq_eq]
  exact congrArg (fun s => x0 (ix3 r m d) * Ideal.rsqrt (max s e2)) (sum_lane2048 (mulf x0 x0) _ _ _ r m)

/-- The logits as the body computes them: the block's unit frames flattened to 1024 rows, multiplied against the
    weights, and unflattened. -/
private def kLg : FVec Ideal S8x128x32 .f32 :=
  shapeCast S8x128x32
    (matmul dot_S1024x2048_S32x2048_S1024x32_1_1_0_0_n_n none (shapeCast S1024x2048 (k0_pay10 x0) shapeCasts_S8x128x2048_S1024x2048) x3
      (constant S1024x32 .f32 0x00000000#32))
    shapeCasts_S1024x32_S8x128x32

/-- They are the row's logits. -/
private theorem kLg_apply (r : Fin 8) (m : Fin 128) (k : Fin 32) :
    kLg x0 x3 (ix3 r m k) = lg nrmK (rowX x0 r) (matOf x3) m k := by
  have hlt : r.val * 128 + m.val < 1024 := by have := r.isLt; have := m.isLt; omega
  unfold kLg
  refine (cast_unflat _ _ r m k hlt).trans ?_
  refine (matmul_flat _ _ _ k).trans ?_
  show _ = ∑ d : Fin 2048, xn nrmK (rowX x0 r) m d * matOf x3 k d
  refine Finset.sum_congr rfl fun d _ => ?_
  exact congrArg (· * x3 (ix2 k d)) ((cast_flat _ _ r m d hlt).trans (pay10_apply x0 r m d))

/-- The masked soft assignments. -/
theorem pay11_apply (r : Fin 8) (m : Fin 128) (k : Fin 32) :
    k0_pay11 (F := Ideal) x0 x1 x3 (ix3 r m k) = av nrmK (rowX x0 r) (rowM x1 r) (matOf x3) m k := by
  unfold k0_pay11 k0_pay8
  simp only [mulf_apply, divf_apply, bcast_lane32, cast_same3, exp_apply, subf_apply, cast_addUnit]
  generalize hVdef : shapeCast S8x128x32
      (matmul dot_S1024x2048_S32x2048_S1024x32_1_1_0_0_n_n none (shapeCast S1024x2048 (k0_pay10 x0) shapeCasts_S8x128x2048_S1024x2048) x3
        (constant S1024x32 .f32 0x00000000#32))
      shapeCasts_S1024x32_S8x128x32 = V
  have hV : ∀ k', V (ix3 r m k') = lg nrmK (rowX x0 r) (matOf x3) m k' := fun k' => by
    rw [← hVdef]; exact kLg_apply x0 x3 r m k'
  have hmx : multiReduction FKind.maximumf [2] S8x128 V 0xFF800000#32 reduces_S8x128x32_S8x128 (.inl rfl) rfl (ix2 r m)
      = mx nrmK (rowX x0 r) (matOf x3) m := by
    refine (max_lane32 V _ _ _ r m).trans ?_
    exact congrArg (fun f => (Finset.univ : Finset (Fin 32)).fold max ⊥ f) (funext hV)
  have hdn : multiReduction FKind.add [2] S8x128
      (exp (subf V (broadcastTo S8x128x32
        (shapeCast S8x128x1
          (multiReduction FKind.maximumf [2] S8x128 V 0xFF800000#32 reduces_S8x128x32_S8x128 (.inl rfl) rfl)
          shapeCasts_S8x128_S8x128x1)
        broadcasts_S8x128x1_S8x128x32)))
      0x00000000#32 reduces_S8x128x32_S8x128 (.inl rfl) rfl (ix2 r m)
      = dn nrmK (rowX x0 r) (matOf x3) m := by
    refine (sum_lane32 _ _ _ _ r m).trans ?_
    show _ = ∑ k' : Fin 32, ex nrmK (rowX x0 r) (matOf x3) m k'
    refine Finset.sum_congr rfl fun k' _ => ?_
    simp only [exp_apply, subf_apply, bcast_lane32, cast_addUnit]
    rw [hV k', hmx]
    rfl
  rw [hV k, hmx, hdn]
  rfl

end Cert.Bridge.K

end
-- ==== Proof.KPayB.lean ====
/-
  The kernel body's values at one row of its batch block, second half: the aggregation of the residuals and the
  two further normalisations, over the first half's unit frames and masked assignments.
-/
import proofs.«404540_j55886114455955_4_alg».proof.Proof.KPayA

noncomputable section

namespace Cert.Bridge.K

open Cert.KernelIdeal Cert.KernelIdeal.Gen Idealize.ShloMosaic Idealize.ShloMosaic.ValueIdx Cert.Bridge

variable (x0 : FVec Ideal S8x128x2048 .f32) (x1 : FVec Ideal S8x128x1 .f32) (x2 : FVec Ideal S8x1 .f32)
  (x3 x4 : FVec Ideal S32x2048 .f32)

/-! ## The batched product of the assignments with the unit frames -/

/-- The left operand's index of the batched product: the batch coordinate on axis 0 … -/
theorem lhs12_0 (i : S8x32x2048.Idx) (q : dot_S8x128x32_S8x128x2048_S8x32x2048_1_1_2_2_0_0.contr.Idx) :
    (dot_S8x128x32_S8x128x2048_S8x32x2048_1_1_2_2_0_0.lhsIdx i q 0).val = (i 0).val := by
  unfold DotDims.lhsIdx
  rw [dif_pos (show (0 : Fin S8x128x32.rank) ∈ dot_S8x128x32_S8x128x2048_S8x32x2048_1_1_2_2_0_0.lhsBatch by decide)]
  rfl
/-- … the contraction coordinate on axis 1 … -/
theorem lhs12_1 (i : S8x32x2048.Idx) (q : dot_S8x128x32_S8x128x2048_S8x32x2048_1_1_2_2_0_0.contr.Idx) :
    (dot_S8x128x32_S8x128x2048_S8x32x2048_1_1_2_2_0_0.lhsIdx i q 1).val = (q ⟨0, by decide⟩).val :=
  dot_S8x128x32_S8x128x2048_S8x32x2048_1_1_2_2_0_0.lhsIdx_val_of_single rfl i q
/-- … and the result's row coordinate on axis 2. -/
theorem lhs12_2 (i : S8x32x2048.Idx) (q : dot_S8x128x32_S8x128x2048_S8x32x2048_1_1_2_2_0_0.contr.Idx) :
    (dot_S8x128x32_S8x128x2048_S8x32x2048_1_1_2_2_0_0.lhsIdx i q 2).val = (i 1).val := by
  unfold DotDims.lhsIdx
  rw [dif_neg (show ¬(2 : Fin S8x128x32.rank) ∈ dot_S8x128x32_S8x128x2048_S8x32x2048_1_1_2_2_0_0.lhsBatch by decide), dif_pos (show (2 : Fin S8x128x32.rank) ∈ dot_S8x128x32_S8x128x2048_S8x32x2048_1_1_2_2_0_0.lhsNonContracting by decide)]
  rfl
/-- The right operand's index: the batch coordinate on axis 0 … -/
theorem rhs12_0 (i : S8x32x2048.Idx) (q : dot_S8x128x32_S8x128x2048_S8x32x2048_1_1_2_2_0_0.contr.Idx) :
    (dot_S8x128x32_S8x128x2048_S8x32x2048_1_1_2_2_0_0.rhsIdx i q 0).val = (i 0).val := by
  unfold DotDims.rhsIdx
  rw [dif_pos (show (0 : Fin S8x128x2048.rank) ∈ dot_S8x128x32_S8x128x2048_S8x32x2048_1_1_2_2_0_0.rhsBatch by decide)]
  rfl
/-- … the contraction coordinate on axis 1 … -/
theorem rhs12_1 (i : S8x32x2048.Idx) (q : dot_S8x128x32_S8x128x2048_S8x32x2048_1_1_2_2_0_0.contr.Idx) :
    (dot_S8x128x32_S8x128x2048_S8x32x2048_1_1_2_2_0_0.rhsIdx i q 1).val = (q ⟨0, by decide⟩).val :=
  dot_S8x128x32_S8x128x2048_S8x32x2048_1_1_2_2_0_0.rhsIdx_val_of_single rfl i q
/-- … and the result's column coordinate on axis 2. -/
theorem rhs12_2 (i : S8x32x2048.Idx) (q : dot_S8x128x32_S8x128x2048_S8x32x2048_1_1_2_2_0_0.contr.Idx) :
    (dot_S8x128x32_S8x128x2048_S8x32x2048_1_1_2_2_0_0.rhsIdx i q 2).val = (i 2).val := by
  unfold DotDims.rhsIdx
  rw [dif_neg (show ¬(2 : Fin S8x128x2048.rank) ∈ dot_S8x128x32_S8x128x2048_S8x32x2048_1_1_2_2_0_0.rhsBatch by decide), dif_pos (show (2 : Fin S8x128x2048.rank) ∈ dot_S8x128x32_S8x128x2048_S8x32x2048_1_1_2_2_0_0.rhsNonContracting by decide)]
  rfl

/-- The batched product into the zero accumulator, read at `(r, k, d)`: the sum over the frames `m` of the left
    operand at `(r, m, k)` times the right at `(r, m, d)`. -/
theorem bmm_apply (a : FVec Ideal S8x128x32 .f32) (b : FVec Ideal S8x128x2048 .f32) (r : Fin 8) (k : Fin 32) (d : Fin 2048) :
    matmul (F := Ideal) dot_S8x128x32_S8x128x2048_S8x32x2048_1_1_2_2_0_0 none a b (constant (F := Ideal) S8x32x2048 .f32 0x00000000#32) (ix3 r k d)
      = ∑ m : Fin 128, a (ix3 r m k) * b (ix3 r m d) := by
  simp only [matmul]
  rw [Ideal.matmul_constant_zero_apply, ← Equiv.sum_comp (contrEquiv1 dot_S8x128x32_S8x128x2048_S8x32x2048_1_1_2_2_0_0 128 rfl rfl).symm]
  refine Finset.sum_congr rfl fun m _ => ?_
  have hk := contrEquiv1_symm_val dot_S8x128x32_S8x128x2048_S8x32x2048_1_1_2_2_0_0 128 rfl rfl m
  have el : dot_S8x128x32_S8x128x2048_S8x32x2048_1_1_2_2_0_0.lhsIdx (ix3 r k d) ((contrEquiv1 dot_S8x128x32_S8x128x2048_S8x32x2048_1_1_2_2_0_0 128 rfl rfl).symm m) = ix3 r m k := funext fun a => Fin.ext (by
    match a with
    | ⟨0, _⟩ => exact lhs12_0 _ _
    | ⟨1, _⟩ => exact (lhs12_1 _ _).trans hk
    | ⟨2, _⟩ => exact lhs12_2 _ _)
  have er : dot_S8x128x32_S8x128x2048_S8x32x2048_1_1_2_2_0_0.rhsIdx (ix3 r k d) ((contrEquiv1 dot_S8x128x32_S8x128x2048_S8x32x2048_1_1_2_2_0_0 128 rfl rfl).symm m) = ix3 r m d := funext fun a => Fin.ext (by
    match a with
    | ⟨0, _⟩ => exact rhs12_0 _ _
    | ⟨1, _⟩ => exact (rhs12_1 _ _).trans hk
    | ⟨2, _⟩ => exact rhs12_2 _ _)
  rw [el, er]

/-- The assignment-weighted sums of the unit frames. -/
theorem pay12_apply (r : Fin 8) (k : Fin 32) (d : Fin 2048) :
    k0_pay12 (F := Ideal) x0 x1 x3 (ix3 r k d) = ax nrmK (rowX x0 r) (rowM x1 r) (matOf x3) k d := by
  unfold k0_pay12
  refine (bmm_apply _ _ r k d).trans ?_
  unfold ax
  refine Finset.sum_congr rfl fun m _ => ?_
  rw [pay11_apply, pay10_apply]

/-! ## The assignment masses -/

/-- A sum over the middle axis of an `8 × 128 × 32` table, read at `(r, k)`. -/
theorem sumMid_apply (a : FVec Ideal S8x128x32 .f32) (r : Fin 8) (k : Fin 32) :
    multiReduction (F := Ideal) .add [1] S8x32 a 0x00000000#32 reduces_S8x128x32_S8x32 (.inl rfl) rfl (ix2 r k)
      = ∑ m : Fin 128, a (ix3 r m k) := by
  refine (Ideal.multiReduction_add_single a _ reduces_S8x128x32_S8x32 (.inl rfl) rfl (ix2 r k)).trans ?_
  show ∑ m : Fin 128, a (reduces_S8x128x32_S8x32.lift (ix2 r k) m) = _
  refine Finset.sum_congr rfl fun m _ => congrArg a (funext fun c => Fin.ext ?_)
  match c with
  | ⟨0, _⟩ => rfl
  | ⟨1, _⟩ => rfl
  | ⟨2, _⟩ => rfl

/-- The assignment masses. -/
theorem pay13_apply (r : Fin 8) (k : Fin 32) :
    k0_pay13 (F := Ideal) x0 x1 x3 (ix2 r k) = asum nrmK (rowX x0 r) (rowM x1 r) (matOf x3) k := by
  unfold k0_pay13
  refine (sumMid_apply _ r k).trans ?_
  unfold asum
  refine Finset.sum_congr rfl fun m _ => ?_
  rw [pay11_apply]

/-! ## Layout operations of the second half, read at coordinates -/

section Layout
variable {α : Type}

/-- An `[8, 32]` table cast to a column `[8, 32, 1]` reads, at `(r, k, u)`, the table at `(r, k)`. -/
theorem colCast_apply (v : S8x32.Idx → α) (r : Fin 8) (k : Fin 32) (u : Fin 1) :
    shapeCast S8x32x1 v shapeCasts_S8x32_S8x32x1 (ix3 r k u) = v (ix2 r k) :=
  shapeCast_apply v _ _ _ (by
    rw [Shape.rowMajor_val_two, Shape.rowMajor_val_three]
    show r.val * 32 + k.val = (r.val * 32 + k.val) * 1 + u.val
    have := u.isLt; omega)

/-- A column `[8, 32, 1]` broadcast along the last axis reads, at `(r, k, d)`, the column at `(r, k, 0)`. -/
theorem colBcast_apply (w : S8x32x1.Idx → α) (r : Fin 8) (k : Fin 32) (d : Fin 2048) :
    broadcastTo S8x32x2048 w broadcasts_S8x32x1_S8x32x2048 (ix3 r k d) = w (ix3 r k (0 : Fin 1)) := by
  refine broadcastTo_apply w _ (ix3 r k d) (ix3 r k (0 : Fin 1)) fun a => ?_
  match a with
  | ⟨0, _⟩ => show r.val = if (8 : Nat) = 1 then 0 else r.val; rw [if_neg (by decide)]
  | ⟨1, _⟩ => show k.val = if (32 : Nat) = 1 then 0 else k.val; rw [if_neg (by decide)]
  | ⟨2, _⟩ => show 0 = if (1 : Nat) = 1 then 0 else d.val; rw [if_pos rfl]

/-- One table `[1, 32, 2048]` broadcast over the batch axis reads, at `(r, k, d)`, the table at `(0, k, d)`. -/
theorem tabBcast_apply (w : S1x32x2048.Idx → α) (r : Fin 8) (k : Fin 32) (d : Fin 2048) :
    broadcastTo S8x32x2048 w broadcasts_S1x32x2048_S8x32x2048 (ix3 r k d) = w (ix3 (0 : Fin 1) k d) := by
  refine broadcastTo_apply w _ (ix3 r k d) (ix3 (0 : Fin 1) k d) fun a => ?_
  match a with
  | ⟨0, _⟩ => show 0 = if (1 : Nat) = 1 then 0 else r.val; rw [if_pos rfl]
  | ⟨1, _⟩ => show k.val = if (32 : Nat) = 1 then 0 else k.val; rw [if_neg (by decide)]
  | ⟨2, _⟩ => show d.val = if (2048 : Nat) = 1 then 0 else d.val; rw [if_neg (by decide)]

/-- One number per batch row, `[8, 1, 1]`, broadcast to `[8, 32, 2048]` reads, at `(r, k, d)`, the number at `(r, 0, 0)`. -/
theorem rowBcast_apply (w : S8x1x1.Idx → α) (r : Fin 8) (k : Fin 32) (d : Fin 2048) :
    broadcastTo S8x32x2048 w broadcasts_S8x1x1_S8x32x2048 (ix3 r k d) = w (ix3 r (0 : Fin 1) (0 : Fin 1)) := by
  refine broadcastTo_apply w _ (ix3 r k d) (ix3 r (0 : Fin 1) (0 : Fin 1)) fun a => ?_
  match a with
  | ⟨0, _⟩ => show r.val = if (8 : Nat) = 1 then 0 else r.val; rw [if_neg (by decide)]
  | ⟨1, _⟩ => show 0 = if (1 : Nat) = 1 then 0 else k.val; rw [if_pos rfl]
  | ⟨2, _⟩ => show 0 = if (1 : Nat) = 1 then 0 else d.val; rw [if_pos rfl]

/-- An `[8, 1]` column cast to `[8, 1, 1]` reads, at `(r, u, u')`, the column at `(r, 0)`. -/
theorem rowCast_apply (v : S8x1.Idx → α) (r : Fin 8) (u u' : Fin 1) :
    shapeCast S8x1x1 v shapeCasts_S8x1_S8x1x1 (ix3 r u u') = v (ix2 r (0 : Fin 1)) :=
  shapeCast_apply v _ _ _ (by
    rw [Shape.rowMajor_val_two, Shape.rowMajor_val_three]
    show r.val * 1 + 0 = (r.val * 1 + u.val) * 1 + u'.val
    have := u.isLt; have := u'.isLt; omega)

end Layout

/-- A sum over the last axis of an `8 × 32 × 2048` table, read at `(r, k)`. -/
theorem sumLast_apply (a : FVec Ideal S8x32x2048 .f32) (r : Fin 8) (k : Fin 32) :
    multiReduction (F := Ideal) .add [2] S8x32 a 0x00000000#32 reduces_S8x32x2048_S8x32 (.inl rfl) rfl (ix2 r k)
      = ∑ d : Fin 2048, a (ix3 r k d) := by
  refine (Ideal.multiReduction_add_single a _ reduces_S8x32x2048_S8x32 (.inl rfl) rfl (ix2 r k)).trans ?_
  show ∑ d : Fin 2048, a (reduces_S8x32x2048_S8x32.lift (ix2 r k) d) = _
  refine Finset.sum_congr rfl fun d _ => congrArg a (funext fun c => Fin.ext ?_)
  match c with
  | ⟨0, _⟩ => rfl
  | ⟨1, _⟩ => rfl
  | ⟨2, _⟩ => rfl

/-- A sum over the middle axis of an `8 × 32 × 1` column, read at `(r, 0)`. -/
theorem sumCol_apply (a : FVec Ideal S8x32x1 .f32) (r : Fin 8) :
    multiReduction (F := Ideal) .add [1] S8x1 a 0x00000000#32 reduces_S8x32x1_S8x1 (.inl rfl) rfl (ix2 r (0 : Fin 1))
      = ∑ k : Fin 32, a (ix3 r k (0 : Fin 1)) := by
  refine (Ideal.multiReduction_add_single a _ reduces_S8x32x1_S8x1 (.inl rfl) rfl (ix2 r (0 : Fin 1))).trans ?_
  show ∑ k : Fin 32, a (reduces_S8x32x1_S8x1.lift (ix2 r (0 : Fin 1)) k) = _
  refine Finset.sum_congr rfl fun k _ => congrArg a (funext fun c => Fin.ext ?_)
  match c with
  | ⟨0, _⟩ => rfl
  | ⟨1, _⟩ => rfl
  | ⟨2, _⟩ => rfl

/-! ## The three stages of the second half -/

/-- The residual rows: the weighted frames minus the masses times the centroids. -/
def stRes (C : FVec Ideal S32x2048 .f32) (A : FVec Ideal S8x32x2048 .f32) (M : FVec Ideal S8x32 .f32) :
    FVec Ideal S8x32x2048 .f32 :=
  subf A (mulf (broadcastTo S8x32x2048 (shapeCast S8x32x1 M shapeCasts_S8x32_S8x32x1) broadcasts_S8x32x1_S8x32x2048)
    (broadcastTo S8x32x2048 (shapeCast S1x32x2048 C shapeCasts_S32x2048_S1x32x2048) broadcasts_S1x32x2048_S8x32x2048))

/-- Every row of a table scaled by the reciprocal root of its floored sum of squares. -/
def stUnit (T : FVec Ideal S8x32x2048 .f32) : FVec Ideal S8x32x2048 .f32 :=
  mulf T (broadcastTo S8x32x2048
    (rsqrt (maximumf
      (shapeCast S8x32x1 (multiReduction (F := Ideal) .add [2] S8x32 (mulf T T) 0x00000000#32 reduces_S8x32x2048_S8x32 (.inl rfl) rfl)
        shapeCasts_S8x32_S8x32x1)
      (broadcast S8x32x1 (Named.named (F := Ideal) κ "eps_sq" (φ := .f32) 0x179ABE15#32))))
    broadcasts_S8x32x1_S8x32x2048)

/-- The whole table of a batch row scaled by the reciprocal root of its floored sum of squares. -/
def stOut (T : FVec Ideal S8x32x2048 .f32) : FVec Ideal S8x32x2048 .f32 :=
  mulf T (broadcastTo S8x32x2048
    (shapeCast S8x1x1
      (rsqrt (maximumf
        (shapeCast S8x1x1
          (multiReduction (F := Ideal) .add [1] S8x1
            (shapeCast S8x32x1 (multiReduction (F := Ideal) .add [2] S8x32 (mulf T T) 0x00000000#32 reduces_S8x32x2048_S8x32 (.inl rfl) rfl)
              shapeCasts_S8x32_S8x32x1)
            0x00000000#32 reduces_S8x32x1_S8x1 (.inl rfl) rfl)
          shapeCasts_S8x1_S8x1x1)
        (broadcast S8x1x1 (Named.named (F := Ideal) κ "eps_sq" (φ := .f32) 0x179ABE15#32))))
      shapeCasts_S8x1x1_S8x1x1)
    broadcasts_S8x1x1_S8x32x2048)

/-- The payload is the three stages in turn. -/
theorem pay14_eq (C : FVec Ideal S32x2048 .f32) (A : FVec Ideal S8x32x2048 .f32) (M : FVec Ideal S8x32 .f32) :
    k0_pay14 (F := Ideal) C A M = stOut (stUnit (stRes C A M)) := rfl

/-- The residual at `(r, k, d)`. -/
theorem stRes_apply (C : FVec Ideal S32x2048 .f32) (A : FVec Ideal S8x32x2048 .f32) (M : FVec Ideal S8x32 .f32)
    (r : Fin 8) (k : Fin 32) (d : Fin 2048) :
    stRes C A M (ix3 r k d) = A (ix3 r k d) - M (ix2 r k) * C (ix2 k d) := by
  unfold stRes
  rw [subf_apply, mulf_apply, colBcast_apply, colCast_apply, tabBcast_apply, shapeCast_ab_1ab_apply]

/-- A unit row at `(r, k, d)`. -/
theorem stUnit_apply (T : FVec Ideal S8x32x2048 .f32) (r : Fin 8) (k : Fin 32) (d : Fin 2048) :
    stUnit T (ix3 r k d) = nrmK (T (ix3 r k d)) (∑ d' : Fin 2048, T (ix3 r k d') * T (ix3 r k d')) := by
  unfold stUnit nrmK
  rw [mulf_apply, colBcast_apply]
  show T (ix3 r k d) * Ideal.rsqrt (max (shapeCast S8x32x1 _ shapeCasts_S8x32_S8x32x1 (ix3 r k (0 : Fin 1)))
    (Named.named (F := Ideal) κ "eps_sq" (φ := .f32) 0x179ABE15#32)) = _
  rw [colCast_apply, sumLast_apply, eps_sq_eq]
  rfl

/-- The scaled table at `(r, k, d)`. -/
theorem stOut_apply (T : FVec Ideal S8x32x2048 .f32) (r : Fin 8) (k : Fin 32) (d : Fin 2048) :
    stOut T (ix3 r k d)
      = nrmK (T (ix3 r k d)) (∑ k' : Fin 32, ∑ d' : Fin 2048, T (ix3 r k' d') * T (ix3 r k' d')) := by
  unfold stOut nrmK
  rw [mulf_apply, rowBcast_apply, shapeCast_self]
  show T (ix3 r k d) * Ideal.rsqrt (max (shapeCast S8x1x1 _ shapeCasts_S8x1_S8x1x1 (ix3 r (0 : Fin 1) (0 : Fin 1)))
    (Named.named (F := Ideal) κ "eps_sq" (φ := .f32) 0x179ABE15#32)) = _
  rw [rowCast_apply, sumCol_apply, eps_sq_eq]
  refine congrArg (fun s => T (ix3 r k d) * Ideal.rsqrt (max s e2)) (Finset.sum_congr rfl fun k' _ => ?_)
  rw [colCast_apply, sumLast_apply]
  rfl

/-- The descriptor's cluster part. -/
theorem pay14_apply (r : Fin 8) (k : Fin 32) (d : Fin 2048) :
    k0_pay14 (F := Ideal) x4 (k0_pay12 (F := Ideal) x0 x1 x3) (k0_pay13 (F := Ideal) x0 x1 x3) (ix3 r k d)
      = out nrmK (rowX x0 r) (rowM x1 r) (matOf x3) (matOf x4) k d := by
  have hvl : ∀ (k : Fin 32) (d : Fin 2048),
      stRes x4 (k0_pay12 (F := Ideal) x0 x1 x3) (k0_pay13 (F := Ideal) x0 x1 x3) (ix3 r k d)
        = vl nrmK (rowX x0 r) (rowM x1 r) (matOf x3) (matOf x4) k d := fun k d => by
    rw [stRes_apply, pay12_apply, pay13_apply]
    rfl
  have hvn : ∀ (k : Fin 32) (d : Fin 2048),
      stUnit (stRes x4 (k0_pay12 (F := Ideal) x0 x1 x3) (k0_pay13 (F := Ideal) x0 x1 x3)) (ix3 r k d)
        = vn nrmK (rowX x0 r) (rowM x1 r) (matOf x3) (matOf x4) k d := fun k d => by
    rw [stUnit_apply]
    unfold vn s2
    simp only [hvl]
  rw [pay14_eq, stOut_apply]
  unfold out s3
  simp only [hvn]

end Cert.Bridge.K

end
-- ==== Proof.RStageA.lean ====
/-
  The reference's stages at one batch row.

  Each stage of the reference, read at batch row `b`, is the row-wise function of Spec.lean applied to row `b`
  of the frames and of the mask, with the dividing normaliser `nrmR`.
-/
import proofs.«404540_j55886114455955_4_alg».proof.Proof.RefRead
import proofs.«404540_j55886114455955_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.R

open Cert.ReferenceIdeal Cert.ReferenceIdeal.ReadP Idealize.ShloMosaic Idealize.ShloMosaic.ValueIdx Cert.Bridge

variable (X : FVec Ideal S64x128x2048 .f32) (L : IVec S64 32) (W C : FVec Ideal S32x2048 .f32)

/-- Row `b` of the frames. -/
def rowX (b : Fin 64) : Fin 128 → Fin 2048 → EReal := fun m d => X (ix3 b m d)
/-- Row `b` of the mask: one where the frame's number is below the row's length. -/
def rowM (b : Fin 64) : Fin 128 → EReal := fun m => val_main_v6 (F := Ideal) L (ix2 b m)
/-- A 32 × 2048 table as a function of its two coordinates. -/
def matOf (w : FVec Ideal S32x2048 .f32) : Fin 32 → Fin 2048 → EReal := fun k d => w (ix2 k d)

/-! ### The average pool -/

private theorem i9 (b : Fin 64) (m : Fin 128) (z : Fin 1) :
    idx_main_v9 (ix3 b m z) = ix2 b m := by
  funext a; match a with | ⟨0, _⟩ => rfl | ⟨1, _⟩ => rfl

private theorem i10 (b : Fin 64) (m : Fin 128) (d : Fin 2048) :
    idx_main_v10 (ix3 b m d) = ix3 b m (⟨0, Nat.one_pos⟩ : Fin 1) := by
  funext a; match a with | ⟨0, _⟩ => rfl | ⟨1, _⟩ => rfl | ⟨2, _⟩ => rfl

private theorem i12 (b : Fin 64) (d : Fin 2048) (k : Fin 128) :
    idx_main_v12 (ix2 b d) k = ix3 b k d := by
  funext a; match a with | ⟨0, _⟩ => rfl | ⟨1, _⟩ => rfl | ⟨2, _⟩ => rfl

private theorem i13 (b : Fin 64) (d : Fin 2048) :
    idx_main_v13 (ix2 b d) = ix2 b (⟨0, Nat.one_pos⟩ : Fin 1) := by
  funext a; match a with | ⟨0, _⟩ => rfl | ⟨1, _⟩ => rfl

private theorem i8 (b : Fin 64) (z : Fin 1) :
    idx_main_v8 (ix2 b z) = ix1 b := by
  funext a; match a with | ⟨0, _⟩ => rfl

/-- The mask spread along the feature axis. -/
private theorem v10_at (b : Fin 64) (m : Fin 128) (d : Fin 2048) :
    val_main_v10 (F := Ideal) L (ix3 b m d) = rowM L b m := by
  rw [val_main_v10_apply, i10, val_main_v9_apply, i9]
  rfl

/-- The masked sum of the raw frames. -/
private theorem v12_at (b : Fin 64) (d : Fin 2048) :
    val_main_v12 (F := Ideal) X L (ix2 b d) = num (rowX X b) (rowM L b) d := by
  rw [val_main_v12_apply, val_main_cst_apply, Ideal.ofBits_def, Ideal.ofBits_zero_f32, zero_add]
  unfold num rowX
  refine Finset.sum_congr rfl fun k _ => ?_
  rw [i12, val_main_v11_apply, Ideal.mulf_def, v10_at]

/-- The average pool: the masked sum of the raw frames over the row's length. -/
theorem v14_apply (b : Fin 64) (d : Fin 2048) :
    val_main_v14 (F := Ideal) X L (ix2 b d)
      = Ideal.div (num (rowX X b) (rowM L b) d) (((L (ix1 b)).toInt : ℝ) : EReal) := by
  rw [val_main_v14_apply, v12_at, val_main_v13_apply, i13, val_main_v8_apply, i8, val_main_v7_apply,
    Ideal.hostDivf_def]
  rfl

/-! ### The unit frames -/

private theorem i16 (b : Fin 64) (m : Fin 128) (k : Fin 2048) :
    idx_main_v16 (ix2 b m) k = ix3 b m k := by
  funext a; match a with | ⟨0, _⟩ => rfl | ⟨1, _⟩ => rfl | ⟨2, _⟩ => rfl

private theorem i17 (b : Fin 64) (m : Fin 128) (z : Fin 1) :
    idx_main_v17 (ix3 b m z) = ix2 b m := by
  funext a; match a with | ⟨0, _⟩ => rfl | ⟨1, _⟩ => rfl

private theorem i21 (b : Fin 64) (m : Fin 128) (d : Fin 2048) :
    idx_main_v21 (ix3 b m d) = ix3 b m (⟨0, Nat.one_pos⟩ : Fin 1) := by
  funext a; match a with | ⟨0, _⟩ => rfl | ⟨1, _⟩ => rfl | ⟨2, _⟩ => rfl

/-- The sum of squares of a frame. -/
private theorem v16_at (b : Fin 64) (m : Fin 128) :
    val_main_v16 (F := Ideal) X (ix2 b m) = sq (rowX X b) m := by
  rw [val_main_v16_apply, val_main_cst_0_apply, Ideal.ofBits_def, Ideal.ofBits_zero_f32, zero_add]
  unfold sq rowX
  refine Finset.sum_congr rfl fun k _ => ?_
  rw [val_main_v15_apply, Ideal.mulf_def, i16]

/-- The floored length of a frame. -/
private theorem v20_at (b : Fin 64) (m : Fin 128) (z : Fin 1) :
    val_main_v20 (F := Ideal) X (ix3 b m z) = max (Ideal.sqrt (sq (rowX X b) m)) eps := by
  rw [val_main_v20_apply, val_main_v18_apply, val_main_v19_apply, val_main_cst_1_apply, val_main_v17_apply,
    i17, v16_at, Ideal.maximumf_def, Ideal.hostUnary_sqrt_def, Ideal.ofBits_def]
  rfl

/-- The unit frames. -/
theorem v22_apply (b : Fin 64) (m : Fin 128) (d : Fin 2048) :
    val_main_v22 (F := Ideal) X (ix3 b m d) = xn nrmR (rowX X b) m d := by
  rw [val_main_v22_apply, val_main_v21_apply, i21, v20_at, Ideal.hostDivf_def]
  rfl

/-! ### The soft assignment -/

private theorem il23 (b : Fin 64) (m : Fin 128) (k : Fin 32) (j : Fin 2048) :
    lidx_main_v23 (ix3 b m k) j = ix3 b m j := by
  funext a; match a with | ⟨0, _⟩ => rfl | ⟨1, _⟩ => rfl | ⟨2, _⟩ => rfl

private theorem ir23 (b : Fin 64) (m : Fin 128) (k : Fin 32) (j : Fin 2048) :
    ridx_main_v23 (ix3 b m k) j = ix2 k j := by
  funext a; match a with | ⟨0, _⟩ => rfl | ⟨1, _⟩ => rfl

/-- The logits. -/
private theorem v23_at (b : Fin 64) (m : Fin 128) (k : Fin 32) :
    val_main_v23 (F := Ideal) X W (ix3 b m k) = lg nrmR (rowX X b) (matOf W) m k := by
  rw [val_main_v23_apply]
  unfold lg matOf
  refine Finset.sum_congr rfl fun j _ => ?_
  rw [il23, ir23, v22_apply]

/-- The reduced index (b, m) with the cluster coordinate put back. -/
private theorem lift24 (h : S64x128x32.Reduces [2] S64x128) (b : Fin 64) (m : Fin 128) (k : Fin (S64x128x32.size 2)) :
    h.lift (ix2 b m) k = ix3 b m (⟨k.val, k.isLt⟩ : Fin 32) := by
  funext c; apply Fin.ext
  match c with | ⟨0, _⟩ => rfl | ⟨1, _⟩ => rfl | ⟨2, _⟩ => rfl

/-- The bit pattern of minus infinity. -/
private theorem ofBits_negInf : Ideal.ofBits .f32 0xFF800000#32 = (⊥ : EReal) := by
  simp [Ideal.ofBits, Ideal.ieee]

/-- The row maximum of the logits. -/
private theorem v24_at (b : Fin 64) (m : Fin 128) :
    val_main_v24 (F := Ideal) X W (ix2 b m) = mx nrmR (rowX X b) (matOf W) m := by
  have h : S64x128x32.Reduces [2] S64x128 := by decide
  unfold val_main_v24
  rw [Host.reduce_eq_fold_single FloatOps.maximumf _ _ Gen.reducesTo_S64x128x32_S64x128_d2 h Gen.h_S_]
  have hf : (val_main_v23 (F := Ideal) X W ∘ h.lift (ix2 b m))
      = fun k : Fin 32 => lg nrmR (rowX X b) (matOf W) m k := funext fun k => by
    show val_main_v23 (F := Ideal) X W (h.lift (ix2 b m) k) = _
    rw [lift24, v23_at]
    rfl
  rw [hf, val_main_cst_2_apply, Ideal.ofBits_def, ofBits_negInf]
  rfl

private theorem i27 (b : Fin 64) (m : Fin 128) (z : Fin 1) :
    idx_main_v27 (ix3 b m z) = ix2 b m := by
  funext a; match a with | ⟨0, _⟩ => rfl | ⟨1, _⟩ => rfl

private theorem i28 (b : Fin 64) (m : Fin 128) (k : Fin 32) :
    idx_main_v28 (ix3 b m k) = ix3 b m (⟨0, Nat.one_pos⟩ : Fin 1) := by
  funext a; match a with | ⟨0, _⟩ => rfl | ⟨1, _⟩ => rfl | ⟨2, _⟩ => rfl

/-- The row maximum spread along the cluster axis. -/
private theorem v28_at (b : Fin 64) (m : Fin 128) (k : Fin 32) :
    val_main_v28 (F := Ideal) X W (ix3 b m k) = mx nrmR (rowX X b) (matOf W) m := by
  rw [val_main_v28_apply, i28, val_main_v27_apply, i27, val_main_v26_apply, v24_at, val_main_v25_apply,
    val_main_cst_3_apply, Ideal.ofBits_def, ofBits_negInf, Ideal.maximumf_def]
  exact max_eq_right bot_le

/-- The shifted exponentials. -/
private theorem v30_at (b : Fin 64) (m : Fin 128) (k : Fin 32) :
    val_main_v30 (F := Ideal) X W (ix3 b m k) = ex nrmR (rowX X b) (matOf W) m k := by
  rw [val_main_v30_apply, val_main_v29_apply, v23_at, v28_at, Ideal.subf_def, Ideal.hostUnary_exp_def]
  rfl

private theorem i31 (b : Fin 64) (m : Fin 128) (k : Fin 32) :
    idx_main_v31 (ix2 b m) k = ix3 b m k := by
  funext a; match a with | ⟨0, _⟩ => rfl | ⟨1, _⟩ => rfl | ⟨2, _⟩ => rfl

/-- Their sum. -/
private theorem v31_at (b : Fin 64) (m : Fin 128) :
    val_main_v31 (F := Ideal) X W (ix2 b m) = dn nrmR (rowX X b) (matOf W) m := by
  rw [val_main_v31_apply, val_main_cst_4_apply, Ideal.ofBits_def, Ideal.ofBits_zero_f32, zero_add]
  unfold dn
  refine Finset.sum_congr rfl fun k _ => ?_
  rw [i31, v30_at]

private theorem i32 (b : Fin 64) (m : Fin 128) (z : Fin 1) :
    idx_main_v32 (ix3 b m z) = ix2 b m := by
  funext a; match a with | ⟨0, _⟩ => rfl | ⟨1, _⟩ => rfl

private theorem i33 (b : Fin 64) (m : Fin 128) (k : Fin 32) :
    idx_main_v33 (ix3 b m k) = ix3 b m (⟨0, Nat.one_pos⟩ : Fin 1) := by
  funext a; match a with | ⟨0, _⟩ => rfl | ⟨1, _⟩ => rfl | ⟨2, _⟩ => rfl

private theorem i35 (b : Fin 64) (m : Fin 128) (z : Fin 1) :
    idx_main_v35 (ix3 b m z) = ix2 b m := by
  funext a; match a with | ⟨0, _⟩ => rfl | ⟨1, _⟩ => rfl

private theorem i36 (b : Fin 64) (m : Fin 128) (k : Fin 32) :
    idx_main_v36 (ix3 b m k) = ix3 b m (⟨0, Nat.one_pos⟩ : Fin 1) := by
  funext a; match a with | ⟨0, _⟩ => rfl | ⟨1, _⟩ => rfl | ⟨2, _⟩ => rfl

/-- The masked soft assignments. -/
theorem v37_apply (b : Fin 64) (m : Fin 128) (k : Fin 32) :
    val_main_v37 (F := Ideal) X L W (ix3 b m k) = av nrmR (rowX X b) (rowM L b) (matOf W) m k := by
  rw [val_main_v37_apply, val_main_v34_apply, v30_at, val_main_v33_apply, i33, val_main_v32_apply, i32, v31_at,
    val_main_v36_apply, i36, val_main_v35_apply, i35, Ideal.hostDivf_def, Ideal.mulf_def]
  rfl

end Cert.Bridge.R

end
-- ==== Proof.RStageB.lean ====
/-
  The reference's stages at one batch row, second half: the residuals, their two normalisations and the
  flattening, over the first half's unit frames and masked assignments.
-/
import proofs.«404540_j55886114455955_4_alg».proof.Proof.RStageA
import Mathlib.Algebra.BigOperators.Fin
import Mathlib.Logic.Equiv.Fin.Basic

noncomputable section

namespace Cert.Bridge.R

open Cert.ReferenceIdeal Cert.ReferenceIdeal.ReadP Idealize.ShloMosaic Idealize.ShloMosaic.ValueIdx Cert.Bridge

variable (X : FVec Ideal S64x128x2048 .f32) (L : IVec S64 32) (W C : FVec Ideal S32x2048 .f32)

/-! ### The residuals -/

/-- The weighted frames: the contraction over the frames of the assignments against the unit frames. -/
private theorem v38_at (b : Fin 64) (k : Fin 32) (d : Fin 2048) :
    val_main_v38 (F := Ideal) X L W (ix3 b k d) = ax nrmR (rowX X b) (rowM L b) (matOf W) k d := by
  rw [val_main_v38_apply]
  unfold ax
  refine Finset.sum_congr rfl (fun m _ => ?_)
  have hl : lidx_main_v38 (ix3 b k d) m = ix3 b m k := by
    funext a; match a with | ⟨0, _⟩ => rfl | ⟨1, _⟩ => rfl | ⟨2, _⟩ => rfl
  have hr : ridx_main_v38 (ix3 b k d) m = ix3 b m d := by
    funext a; match a with | ⟨0, _⟩ => rfl | ⟨1, _⟩ => rfl | ⟨2, _⟩ => rfl
  rw [hl, hr, v37_apply, v22_apply]

/-- The assignment mass of a cluster: the sum of the assignments over the frames. -/
private theorem v39_at (b : Fin 64) (k : Fin 32) :
    val_main_v39 (F := Ideal) X L W (ix2 b k) = asum nrmR (rowX X b) (rowM L b) (matOf W) k := by
  rw [val_main_v39_apply, val_main_cst_5_apply, Ideal.ofBits_def, Ideal.ofBits_zero_f32, zero_add]
  unfold asum
  refine Finset.sum_congr rfl (fun m _ => ?_)
  have hi : idx_main_v39 (ix2 b k) m = ix3 b m k := by
    funext a; match a with | ⟨0, _⟩ => rfl | ⟨1, _⟩ => rfl | ⟨2, _⟩ => rfl
  rw [hi, v37_apply]

/-- The residuals. -/
theorem v45_apply (b : Fin 64) (k : Fin 32) (d : Fin 2048) :
    val_main_v45 (F := Ideal) X L W C (ix3 b k d) = vl nrmR (rowX X b) (rowM L b) (matOf W) (matOf C) k d := by
  rw [val_main_v45_apply, val_main_v44_apply, val_main_v42_apply, val_main_v40_apply, val_main_v43_apply,
    val_main_v41_apply, Ideal.subf_def, Ideal.mulf_def, v38_at]
  have h1 : idx_main_v40 (idx_main_v42 (ix3 b k d)) = ix2 b k := by
    funext a; match a with | ⟨0, _⟩ => rfl | ⟨1, _⟩ => rfl
  have h2 : idx_main_v41 (idx_main_v43 (ix3 b k d)) = ix2 k d := by
    funext a; match a with | ⟨0, _⟩ => rfl | ⟨1, _⟩ => rfl
  rw [h1, h2, v39_at]
  rfl

/-! ### The unit residual rows -/

/-- The sum of squares of a residual row. -/
private theorem v47_at (b : Fin 64) (k : Fin 32) :
    val_main_v47 (F := Ideal) X L W C (ix2 b k) = s2 nrmR (rowX X b) (rowM L b) (matOf W) (matOf C) k := by
  rw [val_main_v47_apply, val_main_cst_6_apply, Ideal.ofBits_def, Ideal.ofBits_zero_f32, zero_add]
  unfold s2
  refine Finset.sum_congr rfl (fun d _ => ?_)
  have hi : idx_main_v47 (ix2 b k) d = ix3 b k d := by
    funext a; match a with | ⟨0, _⟩ => rfl | ⟨1, _⟩ => rfl | ⟨2, _⟩ => rfl
  rw [hi, val_main_v46_apply, Ideal.mulf_def, v45_apply]

/-- The unit residual rows. -/
theorem v53_apply (b : Fin 64) (k : Fin 32) (d : Fin 2048) :
    val_main_v53 (F := Ideal) X L W C (ix3 b k d) = vn nrmR (rowX X b) (rowM L b) (matOf W) (matOf C) k d := by
  rw [val_main_v53_apply, val_main_v52_apply, val_main_v51_apply, val_main_v49_apply, val_main_v48_apply,
    val_main_v50_apply, val_main_cst_7_apply, Ideal.hostDivf_def, Ideal.maximumf_def, Ideal.hostUnary_sqrt_def,
    Ideal.ofBits_def, v45_apply]
  have h1 : idx_main_v48 (idx_main_v52 (ix3 b k d)) = ix2 b k := by
    funext a; match a with | ⟨0, _⟩ => rfl | ⟨1, _⟩ => rfl
  rw [h1, v47_at]
  rfl

/-! ### The flattened table -/

/-- A sum over the 65536 columns is the double sum over clusters and coordinates, column `k * 2048 + d`
    being cluster `k`, coordinate `d`. -/
private theorem sum_flat (f : Fin 65536 → EReal) :
    ∑ j : Fin 65536, f j
      = ∑ k : Fin 32, ∑ d : Fin 2048,
          f ⟨k.val * 2048 + d.val, by have := k.isLt; have := d.isLt; omega⟩ := by
  have e : ∑ p : Fin 32 × Fin 2048,
        f ⟨p.1.val * 2048 + p.2.val, by have := p.1.isLt; have := p.2.isLt; omega⟩ = ∑ j : Fin 65536, f j := by
    refine Fintype.sum_equiv (finProdFinEquiv : Fin 32 × Fin 2048 ≃ Fin (32 * 2048)) _ _ (fun p => ?_)
    congr 1
    apply Fin.ext
    show p.1.val * 2048 + p.2.val = p.2.val + 2048 * p.1.val
    omega
  rw [← e]
  exact Fintype.sum_prod_type _

/-- The reshape: column `k * 2048 + d` of the flattened table is entry `(k, d)` of the unit residual rows. -/
private theorem v54_at (b : Fin 64) (k : Fin 32) (d : Fin 2048) (h : k.val * 2048 + d.val < 65536) :
    val_main_v54 (F := Ideal) X L W C (ix2 b ⟨k.val * 2048 + d.val, h⟩)
      = vn nrmR (rowX X b) (rowM L b) (matOf W) (matOf C) k d := by
  rw [val_main_v54_apply]
  have hi : idx_main_v54 (ix2 b (⟨k.val * 2048 + d.val, h⟩ : Fin 65536)) = ix3 b k d := by
    have hb := b.isLt; have hk := k.isLt; have hd := d.isLt
    funext a
    match a with
    | ⟨0, _⟩ => exact Fin.ext (by show (b.val * 65536 + (k.val * 2048 + d.val)) / 65536 = b.val; omega)
    | ⟨1, _⟩ => exact Fin.ext (by show (b.val * 65536 + (k.val * 2048 + d.val)) / 2048 % 32 = k.val; omega)
    | ⟨2, _⟩ => exact Fin.ext (by show (b.val * 65536 + (k.val * 2048 + d.val)) % 2048 = d.val; omega)
  rw [hi, v53_apply]

/-- The index the sum over the columns reads is the column itself. -/
private theorem idx56 (b : Fin 64) (j : Fin 65536) : idx_main_v56 (ix1 b) j = ix2 b j := by
  funext a; match a with | ⟨0, _⟩ => rfl | ⟨1, _⟩ => rfl

/-- The sum of squares of the whole flattened table. -/
private theorem v56_at (b : Fin 64) :
    val_main_v56 (F := Ideal) X L W C (ix1 b) = s3 nrmR (rowX X b) (rowM L b) (matOf W) (matOf C) := by
  rw [val_main_v56_apply, val_main_cst_8_apply, Ideal.ofBits_def, Ideal.ofBits_zero_f32, zero_add, sum_flat]
  unfold s3
  refine Finset.sum_congr rfl (fun k _ => Finset.sum_congr rfl (fun d _ => ?_))
  rw [idx56, val_main_v55_apply, Ideal.mulf_def, v54_at]

/-- The descriptor's cluster part, flattened: column `k * 2048 + d` is cluster `k`, coordinate `d`. -/
theorem v62_apply (b : Fin 64) (k : Fin 32) (d : Fin 2048) (h : k.val * 2048 + d.val < 65536) :
    val_main_v62 (F := Ideal) X L W C (ix2 b ⟨k.val * 2048 + d.val, h⟩)
      = out nrmR (rowX X b) (rowM L b) (matOf W) (matOf C) k d := by
  rw [val_main_v62_apply, val_main_v61_apply, val_main_v60_apply, val_main_v58_apply, val_main_v57_apply,
    val_main_v59_apply, val_main_cst_9_apply, Ideal.hostDivf_def, Ideal.maximumf_def, Ideal.hostUnary_sqrt_def,
    Ideal.ofBits_def, v54_at]
  have h1 : idx_main_v57 (idx_main_v61 (ix2 b (⟨k.val * 2048 + d.val, h⟩ : Fin 65536))) = ix1 b := by
    funext a; match a with | ⟨0, _⟩ => rfl
  rw [h1, v56_at]
  rfl

end Cert.Bridge.R

end
-- ==== Proof.Laws.lean ====
/-
  The laws that join the two programs.

  * The two ways of scaling to unit length agree on every sum of squares: for `s ≥ 0`,
    `x · rsqrt (max s ε²) = x / max (√s) ε`, because `√(max s ε²) = max (√s) ε` for `ε > 0` — and the floor
    under the sum of squares is EXACTLY `ε²`; at `s = +∞` both sides are `x · 0`.
  * Hence every row-wise function of Spec.lean is the same function under either normaliser.
  * The average pool divides by `max cnt 1` on one side and by `cnt` on the other: equal for `cnt ≥ 1`, and for
    `cnt ≤ -1` too when the masked sum is `0`; `cnt = 0` is excluded by the precondition.
-/
import proofs.«404540_j55886114455955_4_alg».proof.Proof.Spec

noncomputable section

namespace Cert.Bridge

open Idealize.ShloMosaic

/-- The dividing side's floor as a real: the binary32 number `9223372 · 2⁻⁶³`. -/
abbrev εr : ℝ := 2305843 / 2305843009213693952

theorem εr_pos : 0 < εr := by norm_num

theorem eps_val : eps = ((εr : ℝ) : EReal) := by
  unfold eps
  simp [Ideal.ofBits, Ideal.ieee, -EReal.coe_mul]; norm_num

theorem e2_val : e2 = ((εr ^ 2 : ℝ) : EReal) := by
  unfold e2; congr 1; norm_num

/-- The pattern of `1.0`. -/
theorem one_val : Ideal.ofBits .f32 0x3F800000#32 = 1 := by
  simp [Ideal.ofBits, Ideal.ieee, -EReal.coe_mul]; norm_num

/-- The square root of the floored sum of squares is the floored square root. -/
theorem sqrt_max_sq (r : ℝ) (hr : 0 ≤ r) : Real.sqrt (max r (εr ^ 2)) = max (Real.sqrt r) εr := by
  have hε : Real.sqrt (εr ^ 2) = εr := Real.sqrt_sq εr_pos.le
  rcases le_total r (εr ^ 2) with h | h
  · rw [max_eq_right h, hε, max_eq_right]
    calc Real.sqrt r ≤ Real.sqrt (εr ^ 2) := Real.sqrt_le_sqrt h
      _ = εr := hε
  · rw [max_eq_left h, max_eq_left]
    calc εr = Real.sqrt (εr ^ 2) := hε.symm
      _ ≤ Real.sqrt r := Real.sqrt_le_sqrt h

/-- The two normalisers agree on a sum of squares. -/
theorem nrm_eq (x s : EReal) (hs : 0 ≤ s) : nrmK x s = nrmR x s := by
  unfold nrmK nrmR
  rw [eps_val, e2_val]
  induction s using EReal.rec with
  | bot => exact absurd hs (by simp)
  | top =>
    have h1 : max (⊤ : EReal) ((εr ^ 2 : ℝ) : EReal) = ⊤ := max_eq_left le_top
    have h2 : max (Ideal.sqrt ⊤) ((εr : ℝ) : EReal) = ⊤ := by rw [Ideal.sqrt_top]; exact max_eq_left le_top
    rw [h1, h2, Ideal.rsqrt_top, mul_zero]
    unfold Ideal.div
    rw [if_neg (by simp : (⊤ : EReal) ≠ 0), EReal.inv_top, mul_zero]
  | coe r =>
    have hr : 0 ≤ r := by exact_mod_cast hs
    have ht : 0 < max r (εr ^ 2) := lt_max_of_lt_right (by positivity)
    have hm : max (r : EReal) ((εr ^ 2 : ℝ) : EReal) = ((max r (εr ^ 2) : ℝ) : EReal) :=
      (EReal.coe_strictMono.monotone.map_max).symm
    have hy : 0 < max (Real.sqrt r) εr := lt_max_of_lt_right εr_pos
    have hm' : max ((Real.sqrt r : ℝ) : EReal) ((εr : ℝ) : EReal) = ((max (Real.sqrt r) εr : ℝ) : EReal) :=
      (EReal.coe_strictMono.monotone.map_max).symm
    rw [hm, Ideal.rsqrt_coe, if_neg (not_lt.mpr ht.le), if_neg ht.ne', Ideal.sqrt_coe, if_neg (not_lt.mpr hr), hm',
      Ideal.div_coe hy.ne', sqrt_max_sq r hr, one_div]

/-- A square is not negative on the extended reals, at the infinities too. -/
theorem mul_self_nonneg' (a : EReal) : 0 ≤ a * a := by
  induction a using EReal.rec with
  | bot => simp
  | top => simp
  | coe r => exact_mod_cast mul_self_nonneg r

theorem sum_sq_nonneg {ι : Type*} [Fintype ι] (f : ι → EReal) : 0 ≤ ∑ i, f i * f i :=
  Finset.sum_nonneg fun i _ => mul_self_nonneg' (f i)

section Row

variable (x : Fin 128 → Fin 2048 → EReal) (mk : Fin 128 → EReal) (W C : Fin 32 → Fin 2048 → EReal)

theorem xn_eq : xn nrmK x = xn nrmR x := by
  funext m d; unfold xn; exact nrm_eq _ _ (sum_sq_nonneg _)

theorem lg_eq : lg nrmK x W = lg nrmR x W := by
  funext m k; unfold lg; rw [xn_eq]

theorem mx_eq : mx nrmK x W = mx nrmR x W := by
  funext m; unfold mx; rw [lg_eq]

theorem ex_eq : ex nrmK x W = ex nrmR x W := by
  funext m k; unfold ex; rw [lg_eq, mx_eq]

theorem dn_eq : dn nrmK x W = dn nrmR x W := by
  funext m; unfold dn; rw [ex_eq]

theorem av_eq : av nrmK x mk W = av nrmR x mk W := by
  funext m k; unfold av; rw [ex_eq, dn_eq]

theorem ax_eq : ax nrmK x mk W = ax nrmR x mk W := by
  funext k d; unfold ax; rw [av_eq, xn_eq]

theorem asum_eq : asum nrmK x mk W = asum nrmR x mk W := by
  funext k; unfold asum; rw [av_eq]

theorem vl_eq : vl nrmK x mk W C = vl nrmR x mk W C := by
  funext k d; unfold vl; rw [ax_eq, asum_eq]

theorem s2_eq : s2 nrmK x mk W C = s2 nrmR x mk W C := by
  funext k; unfold s2; rw [vl_eq]

theorem vn_eq : vn nrmK x mk W C = vn nrmR x mk W C := by
  funext k d; unfold vn; rw [vl_eq, s2_eq]; exact nrm_eq _ _ (by unfold s2; exact sum_sq_nonneg _)

theorem s3_eq : s3 nrmK x mk W C = s3 nrmR x mk W C := by
  unfold s3; rw [vn_eq]

/-- The descriptor's cluster part is the same function under either normaliser. -/
theorem out_eq : out nrmK x mk W C = out nrmR x mk W C := by
  funext k d; unfold out; rw [vn_eq, s3_eq]
  exact nrm_eq _ _ (by unfold s3; exact Finset.sum_nonneg fun k _ => sum_sq_nonneg _)

end Row

/-- The average pool's two divisors give one quotient: for a length `≥ 1` they are equal, and for a negative
    length the numerator is `0` (every frame is masked out). A zero length is excluded. -/
theorem avg_eq (n : EReal) (l : BitVec 32) (hl : l ≠ 0#32) (hn : l.toInt < 0 → n = 0) :
    Ideal.div n (max (((l.toInt : ℝ)) : EReal) (Ideal.ofBits .f32 0x3F800000#32)) = Ideal.div n (((l.toInt : ℝ)) : EReal) := by
  rw [one_val]
  have h0 : l.toInt ≠ 0 := fun h => hl (BitVec.toInt_inj.mp (by simpa using h))
  rcases lt_or_gt_of_ne h0 with hneg | hpos
  · have hc : ((l.toInt : ℝ)) ≤ -1 := by exact_mod_cast (by omega : l.toInt ≤ -1)
    have hm : max (((l.toInt : ℝ)) : EReal) 1 = 1 := max_eq_right (by exact_mod_cast (by linarith : (l.toInt : ℝ) ≤ 1))
    rw [hm, hn hneg]
    have hne : ((l.toInt : ℝ)) ≠ 0 := by exact_mod_cast h0
    rw [Ideal.div_coe hne]
    unfold Ideal.div
    simp
  · have hc : (1 : ℝ) ≤ (l.toInt : ℝ) := by exact_mod_cast (by omega : 1 ≤ l.toInt)
    rw [max_eq_left (by exact_mod_cast hc)]

end Cert.Bridge

end
-- ==== Proof.Pre.lean ====
/-
  What the precondition says of the lengths, and what a negative length does to the mask.

  The precondition's last conjunct is `all (lengths ≠ 0)`. A frame's mask bit is `m < length` (signed), for the
  frame numbers `m = 0 … 127`: under a negative length every bit is clear, so the masked sum of the frames is `0`.
-/
import proofs.«404540_j55886114455955_4_alg».proof.Pre_finite_inputs
import proofs.«404540_j55886114455955_4_alg».proof.Proof.RefRead
import proofs.«404540_j55886114455955_4_alg».proof.Proof.Spec
import Idealize.ShloMosaic.Lib.ReduceAll
import Idealize.ShloMosaic.Lib.Affine
import Idealize.ShloMosaic.Lib.StableHlo.Predicate
import Idealize.ShloMosaic.Lib.ValueIdx

noncomputable section

namespace Cert.Bridge.Pre

open Idealize.ShloMosaic Idealize.ShloMosaic.ValueIdx Cert.Bridge

instance : Subsingleton Cert.Pre_finite_inputs.S_.Idx := ⟨fun a b => funext fun d => d.elim0⟩

/-- Under the precondition no length is zero. -/
theorem len_ne_zero [Cert.Pre_finite_inputs.Facts]
    (X : FVec Ideal Cert.Pre_finite_inputs.S64x128x2048 .f32) (L : IVec Cert.Pre_finite_inputs.S64 32)
    (W C : FVec Ideal Cert.Pre_finite_inputs.S32x2048 .f32)
    (h : Cert.Pre_finite_inputs.fn (F := Ideal) X L W C = fun _ => 1#1) (i : Cert.Pre_finite_inputs.S64.Idx) :
    L i ≠ 0#32 := by
  have h0 := congrFun h ix0
  dsimp only [Cert.Pre_finite_inputs.fn, Cert.Pre_finite_inputs.fn_part1] at h0
  have h1 := (IntOp.andi_eq_one.mp h0).2
  have h2 := Host.reduce_andi_all _ _ _ _ _ h1 i
  exact IntOp.cmpi_ne.mp h2

open Cert.ReferenceIdeal Cert.ReferenceIdeal.ReadP in
/-- Under a negative length every mask bit of the row is clear. -/
theorem mask_zero_of_neg (L : IVec Cert.ReferenceIdeal.S64 32) (b : Fin 64) (mm : Fin 128)
    (h : (L (ix1 b)).toInt < 0) : val_main_v6 (F := Ideal) L (ix2 b mm) = 0 := by
  have e4 : idx_main_v2 (idx_main_v4 (ix2 b mm : Cert.ReferenceIdeal.S64x128.Idx)) = ix1 b := by
    funext a; match a with | ⟨0, _⟩ => rfl
  have hc : IntOp.cmpi .slt (BitVec.ofNat 32 mm.val) (L (ix1 b)) = 0#1 := by
    apply eq_zero_of_ne_one
    rw [IntOp.cmpi_slt, StableHlo.Predicate.toInt_ofNat_small mm.val (by have := mm.isLt; omega)]
    omega
  rw [val_main_v6_apply, val_main_v5_apply, val_main_v3_apply, val_main_v1_apply, val_main_v0_apply,
    val_main_v4_apply, val_main_v2_apply, e4]
  show FloatOps.uitofp (F := Ideal) .f32 (IntOp.cmpi .slt (BitVec.ofNat 32 mm.val) (L (ix1 b))) = 0
  rw [hc]
  show (((0#1 : BitVec 1).toNat : ℝ) : EReal) = 0
  simp

/-- So the masked sum of the row's frames is zero. -/
theorem num_zero_of_neg (x : Fin 128 → Fin 2048 → EReal) (L : IVec Cert.ReferenceIdeal.S64 32) (b : Fin 64) (d : Fin 2048)
    (h : (L (ix1 b)).toInt < 0) :
    num x (fun mm => Cert.ReferenceIdeal.ReadP.val_main_v6 (F := Ideal) L (ix2 b mm)) d = 0 := by
  unfold num
  refine Finset.sum_eq_zero fun mm _ => ?_
  show x mm d * Cert.ReferenceIdeal.ReadP.val_main_v6 (F := Ideal) L (ix2 b mm) = 0
  rw [mask_zero_of_neg L b mm h, mul_zero]

end Cert.Bridge.Pre

end
-- ==== Proof.Main.lean ====
/-
  The kernel's result array is the reference's last stage.

  Row `8 t + r` of the output array is written by grid point `t` from row `r` of its blocks. Column by column: below
  2048 both programs hold the average pool (the masked sum of the row's frames over the row's length; the floor `1`
  under the length on one side changes nothing for a length that is not zero), and from there on both hold the
  normalised residual table, which is the same function of the row under either way of scaling to unit length.
-/
import proofs.«404540_j55886114455955_4_alg».proof.Proof.Blocks
import proofs.«404540_j55886114455955_4_alg».proof.Proof.KPayA
import proofs.«404540_j55886114455955_4_alg».proof.Proof.KPayB
import proofs.«404540_j55886114455955_4_alg».proof.Proof.RStageA
import proofs.«404540_j55886114455955_4_alg».proof.Proof.RStageB
import proofs.«404540_j55886114455955_4_alg».proof.Proof.Laws
import proofs.«404540_j55886114455955_4_alg».proof.Proof.Pre
import Idealize.ShloMosaic.Lib.StableHlo.Run

noncomputable section

namespace Cert.Bridge.Main

open Cert.KernelIdeal Cert.KernelIdeal.Gen Idealize.ShloMosaic Idealize.ShloMosaic.TcCoe Idealize.ShloMosaic.ValueIdx
  Idealize.SL.Sem Cert.Bridge Cert.Bridge.B Idealize.ShloMosaic.StableHlo
open Cert.ReferenceIdeal.ReadP

variable (m : (ℓ : Loc nD τ sig) → Buf (Elt Ideal) ℓ)

/-- The frames as launched. -/
abbrev aX (c : Dev nD) : FVec Ideal S64x128x2048 .f32 := m ((c : Thread nD τ).loc main_arg0)
/-- The lengths as launched. -/
abbrev aL (c : Dev nD) : IVec S64 32 := m ((c : Thread nD τ).loc main_arg1)
/-- The weights as launched. -/
abbrev aW (c : Dev nD) : FVec Ideal S32x2048 .f32 := m ((c : Thread nD τ).loc main_arg2)
/-- The centroids as launched. -/
abbrev aC (c : Dev nD) : FVec Ideal S32x2048 .f32 := m ((c : Thread nD τ).loc main_arg3)

/-- The whole result as one function of the arguments: the reference's last stage. -/
def G (c : Dev nD) : FVec Ideal S64x67584 .f32 := val_main_v63 (F := Ideal) (aX m c) (aL m c) (aW m c) (aC m c)

/-! ## The arrays the region finds -/

theorem arrX_eq (c : Dev nD) : arrX m c = aX m c := V_main_arg0 m c
theorem arrW_eq (c : Dev nD) : arrW m c = aW m c := V_main_arg2 m c
theorem arrC_eq (c : Dev nD) : arrC m c = aC m c := V_main_arg3 m c

/-- The mask the host operations before the region wrote: the reference's own mask stage. -/
theorem arrM_eq (c : Dev nD) : arrM m c = val_main_v9 (F := Ideal) (aL m c) := by
  show (V m c main_v7 : S64x128x1.Idx → EReal) = _
  dsimp only [V, hostOps0]
  after_results
  rfl

/-- The lengths as floats the host operations before the region wrote: the reference's own stage. -/
theorem arrL_eq (c : Dev nD) : arrL m c = val_main_v8 (F := Ideal) (aL m c) := by
  show (V m c main_v9 : S64x1.Idx → EReal) = _
  dsimp only [V, hostOps0]
  after_results
  rfl

/-! ## The reference's last stage, column by column -/

theorem G_left (c : Dev nD) (b : Fin 64) (j : Fin 67584) (h : j.val < 2048) :
    G m c (ix2 b j) = val_main_v14 (F := Ideal) (aX m c) (aL m c) (ix2 b (⟨j.val, h⟩ : Fin 2048)) := by
  unfold G val_main_v63
  exact concatenate_pair_apply_left (t := Cert.ReferenceIdeal.S64x67584) (s₁ := Cert.ReferenceIdeal.S64x2048)
    (s₂ := Cert.ReferenceIdeal.S64x65536) (1 : Fin 2) _ _ _ (ix2 b j) rfl (ix2 b (⟨j.val, h⟩ : Fin 2048))
    (fun a => match a with | ⟨0, _⟩ => rfl | ⟨1, _⟩ => rfl)

theorem G_right (c : Dev nD) (b : Fin 64) (j : Fin 67584) (h : 2048 ≤ j.val) :
    G m c (ix2 b j) = val_main_v62 (F := Ideal) (aX m c) (aL m c) (aW m c) (aC m c)
      (ix2 b ⟨j.val - 2048, by have := j.isLt; omega⟩) := by
  unfold G val_main_v63
  exact concatenate_pair_apply_right (t := Cert.ReferenceIdeal.S64x67584) (s₁ := Cert.ReferenceIdeal.S64x2048)
    (s₂ := Cert.ReferenceIdeal.S64x65536) (1 : Fin 2) _ _ _ (ix2 b j) rfl rfl
    (ix2 b (⟨j.val - 2048, by have := j.isLt; omega⟩ : Fin 65536))
    (fun a hne => match a, hne with | ⟨0, _⟩, _ => rfl | ⟨1, _⟩, hne => absurd rfl hne)
    (by show j.val - 2048 + 2048 = j.val; omega)

/-! ## One row of one block -/

theorem rowX_eq (c : Dev nD) (t r : Fin 8) : K.rowX (blk0 m c t) r = R.rowX (aX m c) (brow t r) := by
  funext mm d
  show blk0 m c t (ix3 r mm d) = aX m c (ix3 (brow t r) mm d)
  rw [blk0_apply, arrX_eq]

theorem rowM_eq (c : Dev nD) (t r : Fin 8) : K.rowM (blk1 m c t) r = R.rowM (aL m c) (brow t r) := by
  funext mm
  show blk1 m c t (ix3 r mm 0) = val_main_v6 (F := Ideal) (aL m c) (ix2 (brow t r) mm)
  rw [blk1_apply, arrM_eq, val_main_v9_apply]
  congr 1
  funext a; match a with | ⟨0, _⟩ => rfl | ⟨1, _⟩ => rfl

theorem matW_eq (c : Dev nD) (t : Fin 8) : K.matOf (blk3 m c t) = R.matOf (aW m c) := by
  unfold K.matOf R.matOf; rw [blk3_eq, arrW_eq]

theorem matC_eq (c : Dev nD) (t : Fin 8) : K.matOf (blk4 m c t) = R.matOf (aC m c) := by
  unfold K.matOf R.matOf; rw [blk4_eq, arrC_eq]

/-- The length the body reads for row `r`: the row's length as a real. -/
theorem len_eq (c : Dev nD) (t r : Fin 8) :
    blk2 m c t (ix2 r 0) = (((aL m c (ix1 (brow t r))).toInt : ℝ) : EReal) := by
  rw [blk2_apply, arrL_eq, val_main_v8_apply, val_main_v7_apply]
  have e : idx_main_v8 (ix2 (brow t r) (0 : Fin 1) : Cert.ReferenceIdeal.S64x1.Idx) = ix1 (brow t r) := by
    funext a; match a with | ⟨0, _⟩ => rfl
  rw [e]
  rfl

/-- Row `r` of point `t`'s output block is row `8 t + r` of the reference's last stage. -/
theorem block_eq (c : Dev nD) (hlen : ∀ i, aL m c i ≠ 0#32) (t r : Fin 8) (j : Fin 67584) :
    out0_5 (F := Ideal) (blk0 m c t) (blk1 m c t) (blk2 m c t) (blk3 m c t) (blk4 m c t) (ix2 r j)
      = G m c (ix2 (brow t r) j) := by
  rw [out0_5_apply]
  unfold blockOf
  by_cases h : j.val < 2048
  · rw [dif_pos h, K.pay9_apply, rowX_eq, rowM_eq, len_eq, G_left m c _ j h, R.v14_apply]
    exact avg_eq _ _ (hlen _) (fun hneg => Pre.num_zero_of_neg _ _ _ _ hneg)
  · rw [dif_neg h, K.pay14_apply, rowX_eq, rowM_eq, matW_eq, matC_eq, out_eq, G_right m c _ j (not_lt.mp h)]
    have hj := j.isLt
    have e : (⟨j.val - 2048, by omega⟩ : Fin 65536)
        = ⟨(⟨(j.val - 2048) / 2048, by omega⟩ : Fin 32).val * 2048 + (⟨(j.val - 2048) % 2048, Nat.mod_lt _ (by decide)⟩ : Fin 2048).val,
            by show (j.val - 2048) / 2048 * 2048 + (j.val - 2048) % 2048 < 65536; omega⟩ :=
      Fin.ext (by show j.val - 2048 = (j.val - 2048) / 2048 * 2048 + (j.val - 2048) % 2048; omega)
    rw [e, R.v62_apply]

/-! ## The run -/

/-- After the run the output array is the reference's last stage of the arguments. -/
theorem final (c : Dev nD) (hlen : ∀ i, aL m c i ≠ 0#32) : (dats m 0 c).arrAt 5 cfg0.N = G m c :=
  final_of m c (G m c) (fun t r j => block_eq m c hlen t r j)

end Cert.Bridge.Main

end
-- ==== Proof.lean ====
/-
  The certificate: the pooled-descriptor kernel against its reference, over the extended reals.

  Every batch row's result depends on that row alone. The kernel takes the rows eight at a time; at one row both
  programs compute the average pool of the valid frames and the normalised table of residuals to the cluster
  centroids (Proof/Spec.lean). They differ in two places only. A vector is scaled to unit length by multiplying with
  `rsqrt (max s ε²)` in the kernel and by dividing by `max (√s) ε` in the reference: equal for every sum of squares
  `s`, the kernel's floor being exactly the square of the reference's (Proof/Laws.lean). And the kernel floors the
  row's length at `1` before dividing the pooled sum by it: no difference for a length that is not zero, which the
  precondition asks (for a negative length the mask is empty and the pooled sum is `0`).
  The three frames are the generated ones; the idealisation names the floor `ε²` at its three sites.
-/
import proofs.«404540_j55886114455955_4_alg».proof.Defs
import proofs.«404540_j55886114455955_4_alg».proof.Proof.Gen.Kernel
import proofs.«404540_j55886114455955_4_alg».proof.Proof.Gen.Kernel.Skeleton
import proofs.«404540_j55886114455955_4_alg».proof.Proof.Gen.Kernel.Launch
import proofs.«404540_j55886114455955_4_alg».proof.Proof.Gen.Kernel.Points
import proofs.«404540_j55886114455955_4_alg».proof.Proof.Gen.Kernel.Frame
import proofs.«404540_j55886114455955_4_alg».proof.Proof.Gen.KernelIdeal
import proofs.«404540_j55886114455955_4_alg».proof.Proof.Gen.KernelIdeal.Skeleton
import proofs.«404540_j55886114455955_4_alg».proof.Proof.Gen.KernelIdeal.Launch
import proofs.«404540_j55886114455955_4_alg».proof.Proof.Gen.KernelIdeal.Points
import proofs.«404540_j55886114455955_4_alg».proof.Proof.Gen.KernelIdeal.Frame
import proofs.«404540_j55886114455955_4_alg».proof.Proof.Gen.ReferenceIdeal
import proofs.«404540_j55886114455955_4_alg».proof.Proof.Gen.Pre_finite_inputs
import proofs.«404540_j55886114455955_4_alg».proof.Proof.Gen.KernelIdeal.Value
import proofs.«404540_j55886114455955_4_alg».proof.Proof.RefRun
import proofs.«404540_j55886114455955_4_alg».proof.Proof.Main
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunP.run (F := Ideal) m ρ)

/-- The three sites of the named floor: the table gives it the exact square of the reference's floor. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- Both programs end with the reference's last stage of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hlen : ∀ c : Dev Cert.KernelIdeal.nD, ∀ i, Cert.Bridge.Main.aL m c i ≠ 0#32 := fun c i =>
    Cert.Bridge.Pre.len_ne_zero _ _ _ _ (hpre c) i
  refine ⟨fun c => Cert.Bridge.Main.G m c, ?_, ?_⟩
  · exact (θ_run Cert.KernelIdeal.defs _ _).mono
      (fun r h c => ⟨(h c).1.trans (Cert.Bridge.Main.final m c (hlen c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.RunP.run (F := Ideal) m' ρ')
    have e : Cert.ReferenceIdeal.RunP.res_main_v63 m' c
        = Cert.ReferenceIdeal.ReadP.val_main_v63 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) := by
      unfold Cert.ReferenceIdeal.RunP.res_main_v63; rfl
    rw [e, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
